-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x128 : Shape := ⟨2, ![800000, 128]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x256 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S800000x128 .f32) (main_arg2 : IVec S800000 32) (main_arg3 : IVec S800000 32) (main_arg4 : FVec F S128x256 .f32) (main_arg5 : FVec F S128 .f32) (main_arg6 : FVec F S128x256 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S800000x128 : Shape := ⟨2, ![800000, 128]⟩
abbrev S800000 : Shape := ⟨1, ![800000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S_ : Shape := ⟨0, ![]⟩
abbrev S800000x1 : Shape := ⟨2, ![800000, 1]⟩
abbrev S8000x128 : Shape := ⟨2, ![8000, 128]⟩
abbrev S100000 : Shape := ⟨1, ![100000]⟩
abbrev S100000x1 : Shape := ⟨2, ![100000, 1]⟩
abbrev S5000x128 : Shape := ⟨2, ![5000, 128]⟩
abbrev S100000x1x128 : Shape := ⟨3, ![100000, 1, 128]⟩
abbrev S800000x1x128 : Shape := ⟨3, ![800000, 1, 128]⟩

abbrev nBuf : Space → Nat
  | .hbm => 66
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S1x128, .f32⟩
  | .hbm, ⟨17, _⟩ => ⟨S1x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S100000x128, .f32⟩
  | .hbm, ⟨30, _⟩ => ⟨S800000x1, .i32⟩
  | .hbm, ⟨31, _⟩ => ⟨S100000x128, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S100000, .f32⟩
  | .hbm, ⟨36, _⟩ => ⟨S800000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x128, .f32⟩
  | .hbm, ⟨64, _⟩ => ⟨S100000x1x128, .f32⟩
  | .hbm, ⟨65, _⟩ => ⟨S800000x1x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  bcast_S_S800000 : S_.BroadcastsInDim S800000 (![] : Fin 0 → Fin S800000.rank)
  bcast_S800000_S800000x1_0 : S800000.BroadcastsInDim S800000x1 (![0] : Fin 1 → Fin S800000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S100000x128_S100000x1x128_0_2 : S100000x128.BroadcastsInDim S100000x1x128 (![0, 2] : Fin 2 → Fin S100000x1x128.rank)
  bcast_S800000x128_S800000x1x128_0_2 : S800000x128.BroadcastsInDim S800000x1x128 (![0, 2] : Fin 2 → Fin S800000x1x128.rank)
  gather_S100000x128_S800000x1_S800000x128_1_0_n_n_0_1_1128_wf : GatherDims.WF S100000x128 S800000x1 S800000x128 [1] [0] [] [0] [] 1 ![1, 128]
  dot_S8000x128_S128x128_S8000x128_1_0_0_1_n_n_wf : DotDims.WF S8000x128 S128x128 S8000x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S800000x128 : Shape := ⟨2, ![800000, 128]⟩
abbrev S800000 : Shape := ⟨1, ![800000]⟩
abbrev S128x256 : Shape := ⟨2, ![128, 256]⟩
abbrev S128 : Shape := ⟨1, ![128]⟩
abbrev S100000x1x128 : Shape := ⟨3, ![100000, 1, 128]⟩
abbrev S800000x1x128 : Shape := ⟨3, ![800000, 1, 128]⟩
abbrev S_ : Shape := ⟨0, ![]⟩
abbrev S800000x1 : Shape := ⟨2, ![800000, 1]⟩
abbrev S800000x1x256 : Shape := ⟨3, ![800000, 1, 256]⟩
abbrev S1x1x128 : Shape := ⟨3, ![1, 1, 128]⟩
abbrev S100000 : Shape := ⟨1, ![100000]⟩
abbrev S100000x1x1 : Shape := ⟨3, ![100000, 1, 1]⟩
abbrev S100000x1x256 : Shape := ⟨3, ![100000, 1, 256]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S100000x1x128, .f32⟩
  | .hbm, ⟨9, _⟩ => ⟨S800000x1x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x1x128, .f32⟩
  | .hbm, ⟨19, _⟩ => ⟨S800000x1x256, .f32⟩
  | .hbm, ⟨20, _⟩ => ⟨S800000x1x128, .f32⟩
  | .hbm, ⟨21, _⟩ => ⟨S1x1x128, .f32⟩
  | .hbm, ⟨22, _⟩ => ⟨S800000x1x128, .f32⟩
  | .hbm, ⟨23, _⟩ => ⟨S800000x1x128, .f32⟩
  | .hbm, ⟨24, _⟩ => ⟨S_, .f32⟩
  | .hbm, ⟨25, _⟩ => ⟨S100000x1x128, .f32⟩
  | .hbm, ⟨26, _⟩ => ⟨S800000x1, .i32⟩
  | .hbm, ⟨27, _⟩ => ⟨S100000x1x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S100000, .f32⟩
  | .hbm, ⟨32, _⟩ => ⟨S800000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1x1, .f32⟩
  | .hbm, ⟨38, _⟩ => ⟨S100000x1x128, .f32⟩
  | .hbm, ⟨39, _⟩ => ⟨S100000x1x128, .f32⟩
  | .hbm, ⟨40, _⟩ => ⟨S100000x1x256, .f32⟩
  | .hbm, ⟨41, _⟩ => ⟨S100000x1x128, .f32⟩
  | .hbm, ⟨42, _⟩ => ⟨S1x1x128, .f32⟩
  | .hbm, ⟨43, _⟩ => ⟨S100000x1x128, .f32⟩
  | .hbm, ⟨44, _⟩ => ⟨S100000x1x128, .f32⟩
  | .hbm, ⟨45, _⟩ => ⟨S_, .f32⟩
  | .hbm, ⟨46, _⟩ => ⟨S100000x1x128, .f32⟩
  | .hbm, ⟨47, _⟩ => ⟨S100000x1x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x1x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x1x128, .f32⟩
  | .hbm, ⟨66, _⟩ => ⟨S800000x1x128, .f32⟩
  | .hbm, ⟨67, _⟩ => ⟨S_, .f32⟩
  | .hbm, ⟨68, _⟩ => ⟨S800000x1x128, .f32⟩
  | .hbm, ⟨69, _⟩ => ⟨S800000x1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S100000x128_S100000x1x128_0_2 : S100000x128.BroadcastsInDim S100000x1x128 (![0, 2] : Fin 2 → Fin S100000x1x128.rank)
  bcast_S800000x128_S800000x1x128_0_2 : S800000x128.BroadcastsInDim S800000x1x128 (![0, 2] : Fin 2 → Fin S800000x1x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x1x128_S800000x1x128_S800000x1x256_d2 : Shape.Concatenates [S800000x1x128, S800000x1x128] S800000x1x256 2
  bcast_S128_S1x1x128_2 : S128.BroadcastsInDim S1x1x128 (![2] : Fin 1 → Fin S1x1x128.rank)
  bcast_S1x1x128_S800000x1x128_0_1_2 : S1x1x128.BroadcastsInDim S800000x1x128 (![0, 1, 2] : Fin 3 → Fin S800000x1x128.rank)
  bcast_S_S100000x1x128 : S_.BroadcastsInDim S100000x1x128 (![] : Fin 0 → Fin S100000x1x128.rank)
  bcast_S_S100000 : S_.BroadcastsInDim S100000 (![] : Fin 0 → Fin S100000.rank)
  bcast_S100000_S100000x1x1_0 : S100000.BroadcastsInDim S100000x1x1 (![0] : Fin 1 → Fin S100000x1x1.rank)
  bcast_S100000x1x1_S100000x1x128_0_1_2 : S100000x1x1.BroadcastsInDim S100000x1x128 (![0, 1, 2] : Fin 3 → Fin S100000x1x128.rank)
  concatenates_S100000x1x128_S100000x1x128_S100000x1x256_d2 : Shape.Concatenates [S100000x1x128, S100000x1x128] S100000x1x256 2
  bcast_S1x1x128_S100000x1x128_0_1_2 : S1x1x128.BroadcastsInDim S100000x1x128 (![0, 1, 2] : Fin 3 → Fin S100000x1x128.rank)
  bcast_S_S800000x1x128 : S_.BroadcastsInDim S800000x1x128 (![] : Fin 0 → Fin S800000x1x128.rank)
  gather_S100000x1x128_S800000x1_S800000x1x128_12_0_n_n_0_1_11128_wf : GatherDims.WF S100000x1x128 S800000x1 S800000x1x128 [1, 2] [0] [] [0] [] 1 ![1, 1, 128]
  dot_S800000x1x256_S128x256_S800000x1x128_2_1_01_0_n_n_wf : DotDims.WF S800000x1x256 S128x256 S800000x1x128 [2] [1] [0, 1] [0] [] []
  scatter_S100000x1x128_S800000x1_S800000x1x128_12_0_0_1_wf : ScatterDims.WF S100000x1x128 S800000x1 S800000x1x128 [1, 2] [0] [0] 1
  scatter_S100000_S800000x1_S800000_n_0_0_1_wf : ScatterDims.WF S100000 S800000x1 S800000 [] [0] [0] 1
  dot_S100000x1x256_S128x256_S100000x1x128_2_1_01_0_n_n_wf : DotDims.WF S100000x1x256 S128x256 S100000x1x128 [2] [1] [0, 1] [0] [] []

variable [Facts₀]

def gather_S100000x1x128_S800000x1_S800000x1x128_12_0_n_n_0_1_11128 : GatherDims S100000x1x128 S800000x1 S800000x1x128 where
  offsetDims := [1, 2]
  collapsedSliceDims := [0]
  operandBatchingDims := []
  startIndicesBatchingDims := []
  startIndexMap := [0]
  indexVectorDim := 1
  sliceSizes := ![1, 1, 128]
  wf := gather_S100000x1x128_S800000x1_S800000x1x128_12_0_n_n_0_1_11128_wf
def dot_S800000x1x256_S128x256_S800000x1x128_2_1_01_0_n_n : DotDims S800000x1x256 S128x256 S800000x1x128 where
  lhsContracting := [2]
  rhsContracting := [1]
  lhsNonContracting := [0, 1]
  rhsNonContracting := [0]
  lhsBatch := []
  rhsBatch := []
  wf := dot_S800000x1x256_S128x256_S800000x1x128_2_1_01_0_n_n_wf
def scatter_S100000x1x128_S800000x1_S800000x1x128_12_0_0_1 : ScatterDims S100000x1x128 S800000x1 S800000x1x128 where
  updateWindowDims := [1, 2]
  insertedWindowDims := [0]
  scatterDimsToOperandDims := [0]
  indexVectorDim := 1
  wf := scatter_S100000x1x128_S800000x1_S800000x1x128_12_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x1x256_S128x256_S100000x1x128_2_1_01_0_n_n : DotDims S100000x1x256 S128x256 S100000x1x128 where
  lhsContracting := [2]
  rhsContracting := [1]
  lhsNonContracting := [0, 1]
  rhsNonContracting := [0]
  lhsBatch := []
  rhsBatch := []
  wf := dot_S100000x1x256_S128x256_S100000x1x128_2_1_01_0_n_n_wf

class Facts : Prop extends Facts₀ where

variable [Facts]
-- ==== Proof.Spec.lean ====
/-
  The three kernel bodies as whole-array functions on the extended reals, and the relation between a matrix
  [n, d] and the same entries laid out as [n, 1, d] (the reference carries a unit middle axis everywhere).

  * `affRow A B Wa Wb b p q`: row p of A times column q of Wa, plus row p of B times column q of Wb, plus the
    bias at q: one entry of the message layer and of the node-update layer before its maximum with zero.
  * `affine2`, `reluAffine2`, `avg2`: those entries as arrays, the second cut off below at zero, the third
    the half-sum of two arrays.
-/
import Idealize.ShloMosaic.PureOps.Ideal.Laws
import Idealize.ShloMosaic.Lib.ValueIdx
import Idealize.ShloMosaic.Lib.Pipeline.Value

noncomputable section

open scoped BigOperators

namespace Cert.Sage

open Idealize.ShloMosaic Idealize.ShloMosaic.ValueIdx

/-- A matrix [n, d] and an array [n, 1, d] hold the same entries. -/
def Rel23 {α : Type} {n d : Nat} (K : (⟨2, ![n, d]⟩ : Shape).Idx → α) (R : (⟨3, ![n, 1, d]⟩ : Shape).Idx → α) : Prop :=
  ∀ (a : Fin n) (b : Fin d), K (ix2 a b) = R (ix3 a 0 b)

/-- One entry of a two-operand linear layer: A(p, ·)·Wa(·, q) + B(p, ·)·Wb(·, q) + b(q). -/
def affRow {r : Nat} (A B : (⟨2, ![r, 128]⟩ : Shape).Idx → EReal) (Wa Wb : (⟨2, ![128, 128]⟩ : Shape).Idx → EReal)
    (b : (⟨2, ![1, 128]⟩ : Shape).Idx → EReal) (p : Fin r) (q : Fin 128) : EReal :=
  ((∑ k : Fin 128, A (ix2 p k) * Wa (ix2 k q)) + ∑ k : Fin 128, B (ix2 p k) * Wb (ix2 k q)) + b (ix2 0 q)

/-- The layer's output array. -/
def affine2 {r : Nat} (A B : (⟨2, ![r, 128]⟩ : Shape).Idx → EReal) (Wa Wb : (⟨2, ![128, 128]⟩ : Shape).Idx → EReal)
    (b : (⟨2, ![1, 128]⟩ : Shape).Idx → EReal) : (⟨2, ![r, 128]⟩ : Shape).Idx → EReal :=
  fun i => affRow A B Wa Wb b (i 0) (i 1)

/-- The layer's output cut off below at zero. -/
def reluAffine2 {r : Nat} (A B : (⟨2, ![r, 128]⟩ : Shape).Idx → EReal) (Wa Wb : (⟨2, ![128, 128]⟩ : Shape).Idx → EReal)
    (b : (⟨2, ![1, 128]⟩ : Shape).Idx → EReal) : (⟨2, ![r, 128]⟩ : Shape).Idx → EReal :=
  fun i => max (affRow A B Wa Wb b (i 0) (i 1)) (Ideal.ofBits .f32 0x00000000#32)

/-- Half the sum of two arrays, entry by entry. -/
def avg2 {s : Shape} (A B : s.Idx → EReal) : s.Idx → EReal :=
  fun i => (A i + B i) * Ideal.ofBits .f32 0x3F000000#32

theorem affine2_apply {r : Nat} (A B : (⟨2, ![r, 128]⟩ : Shape).Idx → EReal) (Wa Wb : (⟨2, ![128, 128]⟩ : Shape).Idx → EReal)
    (b : (⟨2, ![1, 128]⟩ : Shape).Idx → EReal) (p : Fin r) (q : Fin 128) :
    affine2 A B Wa Wb b (ix2 p q) = affRow A B Wa Wb b p q := rfl

theorem reluAffine2_apply {r : Nat} (A B : (⟨2, ![r, 128]⟩ : Shape).Idx → EReal) (Wa Wb : (⟨2, ![128, 128]⟩ : Shape).Idx → EReal)
    (b : (⟨2, ![1, 128]⟩ : Shape).Idx → EReal) (p : Fin r) (q : Fin 128) :
    reluAffine2 A B Wa Wb b (ix2 p q) = max (affRow A B Wa Wb b p q) (Ideal.ofBits .f32 0x00000000#32) := rfl

end Cert.Sage

end
-- ==== Proof.KDefs.lean ====
/-
  The kernel program's arrays as functions of its eight arguments, at the extended reals: the host operations between the
  three kernels are read off @main, each kernel by its whole-array function (`affine2`, `reluAffine2`, `avg2`).

  x0 node features [100000, 128] · x1 edge features [800000, 128] · x2, x3 source and destination rows [800000] ·
  x4, x5 the message layer's weight [128, 256] and bias [128] · x6, x7 the node update's.
-/
import proofs.«103564_j85152021611247_1_alg».proof.Proof.Gen.KernelIdeal
import proofs.«103564_j85152021611247_1_alg».proof.Proof.Spec

noncomputable section

namespace Cert.KernelIdeal.KV

open Cert.KernelIdeal Cert.KernelIdeal.Gen Cert.Sage
open Idealize.ShloMosaic Idealize.ShloMosaic.ValueIdx

abbrev TF (s : Shape) : Type := FVec Ideal s .f32
abbrev TI (s : Shape) : Type := IVec s 32

/-- A negative row index counts from the end: 100000 is added to it. -/
def wrapIdx (x : TI S800000) : TI S800000 :=
  select (cmpi .slt x (broadcastInDim S800000 ![] bcast_S_S800000 (constantI S_ 32 0#32)))
    (addi x (broadcastInDim S800000 ![] bcast_S_S800000 (constantI S_ 32 100000#32))) x
/-- The row indices as a column [800000, 1]. -/
def colIdx (x : TI S800000) : TI S800000x1 := broadcastInDim S800000x1 ![0] bcast_S800000_S800000x1_0 x
/-- The left half of a weight [128, 256], transposed: entry (k, o) is w(o, k). -/
def wLo (w : TF S128x256) : TF S128x128 :=
  transpose S128x128 [1, 0] (extractStridedSlice S128x128 ![0, 0] w slices_S128x256_S128x128_0_0) transposes_S128x128_S128x128_1_0
/-- The right half, transposed: entry (k, o) is w(o, 128 + k). -/
def wHi (w : TF S128x256) : TF S128x128 :=
  transpose S128x128 [1, 0] (extractStridedSlice S128x128 ![0, 128] w slices_S128x256_S128x128_0_128) transposes_S128x128_S128x128_1_0
/-- A bias as one row [1, 128]. -/
def bRow (b : TF S128) : TF S1x128 := fun i => shapeCast S1x128 b shapeCasts_S128_S1x128 i
/-- Rows of a matrix [100000, 128] gathered at 800000 (wrapped, clamped) row indices. -/
def rowsAt (x : TF S100000x128) (r : TI S800000) : TF S800000x128 :=
  Host.gather gather_S100000x128_S800000x1_S800000x128_1_0_n_n_0_1_1128 x (colIdx (wrapIdx r))

/-- The messages: one per edge. -/
def kMsg (x0 : TF S100000x128) (x1 : TF S800000x128) (x2 : TI S800000) (x4 : TF S128x256) (x5 : TF S128) : TF S800000x128 :=
  affine2 (rowsAt x0 x2) x1 (wLo x4) (wHi x4) (bRow x5)
/-- The messages summed into their destination rows. -/
def kAgg (x0 : TF S100000x128) (x1 : TF S800000x128) (x2 x3 : TI S800000) (x4 : TF S128x256) (x5 : TF S128) : TF S100000x128 :=
  Host.scatterAdd scatter_S100000x128_S800000x1_S800000x128_1_0_0_1
    (broadcastInDim S100000x128 ![] bcast_S_S100000x128 (constant (F := Ideal) S_ .f32 0x00000000#32)) (colIdx x3) (kMsg x0 x1 x2 x4 x5)
/-- The number of messages a row receives, at least one. -/
def kDeg (x3 : TI S800000) : TF S100000 :=
  maximumf (Host.scatterAdd scatter_S100000_S800000x1_S800000_n_0_0_1
      (broadcastInDim S100000 ![] bcast_S_S100000 (constant (F := Ideal) S_ .f32 0x00000000#32)) (colIdx x3)
      (broadcastInDim S800000 ![] bcast_S_S800000 (constant (F := Ideal) S_ .f32 0x3F800000#32)))
    (broadcastInDim S100000 ![] bcast_S_S100000 (constant (F := Ideal) S_ .f32 0x3F800000#32))
/-- The mean of the messages a row receives. -/
def kHn (x0 : TF S100000x128) (x1 : TF S800000x128) (x2 x3 : TI S800000) (x4 : TF S128x256) (x5 : TF S128) : TF S100000x128 :=
  Host.divf (kAgg x0 x1 x2 x3 x4 x5)
    (broadcastInDim S100000x128 ![0, 1] bcast_S100000x1_S100000x128_0_1 (broadcastInDim S100000x1 ![0] bcast_S100000_S100000x1_0 (kDeg x3)))
/-- The updated node features. -/
def kNewh (x0 : TF S100000x128) (x1 : TF S800000x128) (x2 x3 : TI S800000) (x4 : TF S128x256) (x5 : TF S128) (x6 : TF S128x256) (x7 : TF S128) : TF S100000x128 :=
  reluAffine2 x0 (kHn x0 x1 x2 x3 x4 x5) (wLo x6) (wHi x6) (bRow x7)
/-- The updated edge features: the mean of the two endpoints' updated features. -/
def kNewe (x0 : TF S100000x128) (x1 : TF S800000x128) (x2 x3 : TI S800000) (x4 : TF S128x256) (x5 : TF S128) (x6 : TF S128x256) (x7 : TF S128) : TF S800000x128 :=
  avg2 (rowsAt (kNewh x0 x1 x2 x3 x4 x5 x6 x7) x2) (rowsAt (kNewh x0 x1 x2 x3 x4 x5 x6 x7) x3)
/-- The two results, a unit axis inserted. -/
def kOut0 (x0 : TF S100000x128) (x1 : TF S800000x128) (x2 x3 : TI S800000) (x4 : TF S128x256) (x5 : TF S128) (x6 : TF S128x256) (x7 : TF S128) : TF S100000x1x128 :=
  broadcastInDim S100000x1x128 ![0, 2] bcast_S100000x128_S100000x1x128_0_2 (kNewh x0 x1 x2 x3 x4 x5 x6 x7)
def kOut1 (x0 : TF S100000x128) (x1 : TF S800000x128) (x2 x3 : TI S800000) (x4 : TF S128x256) (x5 : TF S128) (x6 : TF S128x256) (x7 : TF S128) : TF S800000x1x128 :=
  broadcastInDim S800000x1x128 ![0, 2] bcast_S800000x128_S800000x1x128_0_2 (kNewe x0 x1 x2 x3 x4 x5 x6 x7)

end Cert.KernelIdeal.KV

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KRegion0.lean ====
/-
  The first kernel (the message layer): every block of 8000 rows of its output is, entry by entry, the row of the gathered
  source features times a column of the first weight block, plus the row of the edge features times a column of the second,
  plus the bias; the hundred blocks tile the 800000 rows, so the output array is `affine2` of the input arrays.
-/
import proofs.«103564_j85152021611247_1_alg».proof.Proof.Gen.KernelIdeal.Frame
import proofs.«103564_j85152021611247_1_alg».proof.Proof.Spec
import proofs.«103564_j85152021611247_1_alg».proof.Proof.LibMatmulPlain
import Idealize.ShloMosaic.Lib.Pipeline.Value

set_option maxRecDepth 16384

noncomputable section

open scoped BigOperators

namespace Cert.KernelIdeal.KV.R0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input arrays as the region finds them, at their literal types. -/
abbrev r0H (c : Dev nD) : Vec Ideal S800000x128 .f32 := V c main_v16
abbrev r0E (c : Dev nD) : Vec Ideal S800000x128 .f32 := V c main_arg1
abbrev r0Wa (c : Dev nD) : Vec Ideal S128x128 .f32 := V c main_v1
abbrev r0Wb (c : Dev nD) : Vec Ideal S128x128 .f32 := V c main_v3
abbrev r0B (c : Dev nD) : Vec Ideal S1x128 .f32 := V c main_v8

theorem hz : (![0, 0] : Fin 2 → Nat) = fun _ => 0 := funext fun a => by fin_cases a <;> rfl

/-- The body's arithmetic at entry (p, q) of a block. -/
theorem pay0_apply (x0 x1 : Vec Ideal S8000x128 .f32) (x2 x3 : Vec Ideal S128x128 .f32) (x4 : Vec Ideal S1x128 .f32) (p : Fin 8000) (q : Fin 128) :
    k0_pay1 x0 x1 x2 x3 x4 (ix2 p q) = affRow x0 x1 x2 x3 x4 p q := by
  -- each of the two products into the zero accumulator, read at (p, q), is the plain sum over the contracted index
  have hm : ∀ (a : FVec Ideal S8000x128 .bf16) (b : FVec Ideal S128x128 .bf16),
      matmul dot_S8000x128_S128x128_S8000x128_1_0_0_1_n_n none a b (constant S8000x128 .f32 0x00000000#32) (ix2 p q)
        = ∑ k : Fin 128, a (ix2 p k) * b (ix2 k q) := fun a b =>
    Cert.LibMatmulPlain.matmul_plain_zero_apply (m := 8000) (k := 128) (n := 128) none a b p q
  unfold k0_pay1
  simp only [shapeCast_self]
  refine (addf_apply _ _ _).trans ?_
  refine congrArg₂ (· + ·) ((addf_apply _ _ _).trans (congrArg₂ (· + ·) (hm _ _) (hm _ _))) ?_
  exact Cert.LibMatmulPlain.rowBroadcast_apply x4 broadcasts_S1x128_S8000x128 p q

/-- Two entries of the layer agree when their operands agree factor by factor along the contracted index. -/
theorem affRow_congr {r r' : Nat} (A B : (⟨2, ![r, 128]⟩ : Shape).Idx → EReal) (A' B' : (⟨2, ![r', 128]⟩ : Shape).Idx → EReal)
    (Wa Wb Wa' Wb' : (⟨2, ![128, 128]⟩ : Shape).Idx → EReal) (b b' : (⟨2, ![1, 128]⟩ : Shape).Idx → EReal)
    (p : Fin r) (p' : Fin r') (q q' : Fin 128)
    (hA : ∀ k : Fin 128, A (ix2 p k) = A' (ix2 p' k)) (hB : ∀ k : Fin 128, B (ix2 p k) = B' (ix2 p' k))
    (hWa : ∀ k : Fin 128, Wa (ix2 k q) = Wa' (ix2 k q')) (hWb : ∀ k : Fin 128, Wb (ix2 k q) = Wb' (ix2 k q'))
    (hb : b (ix2 0 q) = b' (ix2 0 q')) :
    affRow A B Wa Wb b p q = affRow A' B' Wa' Wb' b' p' q' := by
  unfold affRow
  rw [hb]
  congr 1
  congr 1
  · exact Finset.sum_congr rfl fun k _ => by rw [hA k, hWa k]
  · exact Finset.sum_congr rfl fun k _ => by rw [hB k, hWb k]

/-- Block t of the two feature windows and of the output is rows 8000·t … 8000·t + 7999, all 128 columns; the two weight
    blocks and the bias are their whole arrays at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed0 (c : Dev nD) (t : Fin cfg0.N) :
    (dat0 (F := Ideal) V c).flushed 5 t
      = ((cfg0.win 5).blk t).view.read (Elt Ideal) (affine2 (r0H V c) (r0E V c) (r0Wa V c) (r0Wb V c) (r0B V c)) := by
  show (cfg0.win 5).cut (grid0.coords t) ((dat0 V c).after 5 t) = _
  rw [after0_5]
  unfold out0_5
  rw [View.canon_unit_zero hz]
  simp only [View.ld_unit_zero (S := S8000x128) hz, View.ld_unit_zero (S := S128x128) hz, View.ld_unit_zero (S := S1x128) hz]
  funext j
  obtain ⟨e00, e01, e10, e11, e20, e21, e30, e31, e40, e41, e50, e51⟩ := idx_facts0 t
  have hj0 : (j 0).val < 8000 := (j 0).isLt
  have hj1 : (j 1).val < 128 := (j 1).isLt
  -- the entry's place in the block, (p, q), and in the array, (P, Q) = (8000·t + p, q)
  have hx : (win0 5).xinj (grid0.coords t) j = ix2 (⟨(j 0).val, hj0⟩ : Fin 8000) (⟨(j 1).val, hj1⟩ : Fin 128) := by
    funext a
    match a with
    | ⟨0, _⟩ => rfl
    | ⟨1, _⟩ => rfl
  show k0_pay1 (iblk0 V c 0 t) (iblk0 V c 1 t) (iblk0 V c 2 t) (iblk0 V c 3 t) (iblk0 V c 4 t) ((win0 5).xinj (grid0.coords t) j) = _
  rw [hx]
  refine (pay0_apply _ _ _ _ _ _ _).trans ?_
  have hP : ((((cfg0.win 5).blk t).view.emb j) 0).val = win0_5.index t (0 : Fin 2) * 8000 + 1 * (j 0).val := rfl
  have hQ : ((((cfg0.win 5).blk t).view.emb j) 1).val = win0_5.index t (1 : Fin 2) * 128 + 1 * (j 1).val := rfl
  show affRow (iblk0 V c 0 t) (iblk0 V c 1 t) (iblk0 V c 2 t) (iblk0 V c 3 t) (iblk0 V c 4 t) (⟨(j 0).val, hj0⟩ : Fin 8000) (⟨(j 1).val, hj1⟩ : Fin 128)
    = affRow (r0H V c) (r0E V c) (r0Wa V c) (r0Wb V c) (r0B V c) ((((cfg0.win 5).blk t).view.emb j) 0) ((((cfg0.win 5).blk t).view.emb j) 1)
  refine affRow_congr _ _ _ _ _ _ _ _ _ _ _ _ _ _ (fun k => ?_) (fun k => ?_) (fun k => ?_) (fun k => ?_) ?_
  · -- row p of the gathered-feature block is row 8000·t + p of its array
    show r0H V c (((cfg0.win 0).blk t).view.emb (ix2 (⟨(j 0).val, hj0⟩ : Fin 8000) k)) = r0H V c (ix2 ((((cfg0.win 5).blk t).view.emb j) 0) k)
    refine congrArg (r0H V c) ?_
    funext a; apply Fin.ext
    match a with
    | ⟨0, _⟩ => show win0_0.index t (0 : Fin 2) * 8000 + 1 * (j 0).val = ((((cfg0.win 5).blk t).view.emb j) 0).val; omega
    | ⟨1, _⟩ => show win0_0.index t (1 : Fin 2) * 128 + 1 * k.val = k.val; omega
  · -- row p of the edge-feature block is row 8000·t + p of its array
    show r0E V c (((cfg0.win 1).blk t).view.emb (ix2 (⟨(j 0).val, hj0⟩ : Fin 8000) k)) = r0E V c (ix2 ((((cfg0.win 5).blk t).view.emb j) 0) k)
    refine congrArg (r0E V c) ?_
    funext a; apply Fin.ext
    match a with
    | ⟨0, _⟩ => show win0_1.index t (0 : Fin 2) * 8000 + 1 * (j 0).val = ((((cfg0.win 5).blk t).view.emb j) 0).val; omega
    | ⟨1, _⟩ => show win0_1.index t (1 : Fin 2) * 128 + 1 * k.val = k.val; omega
  · -- the first weight block is its whole array
    show r0Wa V c (((cfg0.win 2).blk t).view.emb (ix2 k (⟨(j 1).val, hj1⟩ : Fin 128))) = r0Wa V c (ix2 k ((((cfg0.win 5).blk t).view.emb j) 1))
    refine congrArg (r0Wa V c) ?_
    funext a; apply Fin.ext
    match a with
    | ⟨0, _⟩ => show win0_2.index t (0 : Fin 2) * 128 + 1 * k.val = k.val; omega
    | ⟨1, _⟩ => show win0_2.index t (1 : Fin 2) * 128 + 1 * (j 1).val = ((((cfg0.win 5).blk t).view.emb j) 1).val; omega
  · -- the second weight block is its whole array
    show r0Wb V c (((cfg0.win 3).blk t).view.emb (ix2 k (⟨(j 1).val, hj1⟩ : Fin 128))) = r0Wb V c (ix2 k ((((cfg0.win 5).blk t).view.emb j) 1))
    refine congrArg (r0Wb V c) ?_
    funext a; apply Fin.ext
    match a with
    | ⟨0, _⟩ => show win0_3.index t (0 : Fin 2) * 128 + 1 * k.val = k.val; omega
    | ⟨1, _⟩ => show win0_3.index t (1 : Fin 2) * 128 + 1 * (j 1).val = ((((cfg0.win 5).blk t).view.emb j) 1).val; omega
  · -- the bias block is its whole array
    show r0B V c (((cfg0.win 4).blk t).view.emb (ix2 (0 : Fin 1) (⟨(j 1).val, hj1⟩ : Fin 128))) = r0B V c (ix2 (0 : Fin 1) ((((cfg0.win 5).blk t).view.emb j) 1))
    refine congrArg (r0B V c) ?_
    funext a; apply Fin.ext
    match a with
    | ⟨0, _⟩ => show win0_4.index t (0 : Fin 2) * 1 + 1 * 0 = 0; omega
    | ⟨1, _⟩ => show win0_4.index t (1 : Fin 2) * 128 + 1 * (j 1).val = ((((cfg0.win 5).blk t).view.emb j) 1).val; omega

/-- An index of the output array is in point t's block iff each coordinate is in the block's range. -/
theorem mem_blk0 (t : Fin cfg0.N) (i : S800000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v17).slice (win0_5.rect t)).set ↔ _
  rw [View.set_slice_whole, Rect.mem_set_unit]
  exact Iff.rfl

/-- Every row lies in the block of the point numbered row / 8000. -/
theorem cover0 (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  have hN : cfg0.N = 100 := N_0
  let t : Fin cfg0.N := ⟨(i 0).val / 8000, by rw [hN]; omega⟩
  obtain ⟨e00, e01, e10, e11, e20, e21, e30, e31, e40, e41, e50, e51⟩ := idx_facts0 t
  have ht : t.val = (i 0).val / 8000 := rfl
  refine ⟨t, flush0_5 t, ?_⟩
  rw [mem_blk0]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 128 ≤ (i 1).val ∧ (i 1).val < win0_5.index t (1 : Fin 2) * 128 + 128; omega

/-- The kernel's output array, whatever contents `V` the region is entered at. -/
theorem arr0 (c : Dev nD) : (dat0 (F := Ideal) V c).arrAt 5 cfg0.N = affine2 (r0H V c) (r0E V c) (r0Wa V c) (r0Wb V c) (r0B V c) :=
  (dat0 V c).arrAt_eq_of_cover 5 _ (fun t _ => flushed0 V c t) cover0

end Cert.KernelIdeal.KV.R0

end
-- ==== Proof.KRegion1.lean ====
/-
  The second kernel (the node update): every block of 5000 rows of its output is, entry by entry, the maximum with zero of
  the row of the node features times a column of the first weight block, plus the row of the neighbour means times a column
  of the second, plus the bias; the twenty blocks tile the 100000 rows, so the output array is `reluAffine2` of the inputs.
-/
import proofs.«103564_j85152021611247_1_alg».proof.Proof.Gen.KernelIdeal.Frame
import proofs.«103564_j85152021611247_1_alg».proof.Proof.Spec
import proofs.«103564_j85152021611247_1_alg».proof.Proof.LibMatmulPlain
import Idealize.ShloMosaic.Lib.Pipeline.Value

set_option maxRecDepth 16384

noncomputable section

open scoped BigOperators

namespace Cert.KernelIdeal.KV.R1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input arrays as the region finds them, at their literal types. -/
abbrev r1X (c : Dev nD) : Vec Ideal S100000x128 .f32 := V c main_arg0
abbrev r1Hn (c : Dev nD) : Vec Ideal S100000x128 .f32 := V c main_v29
abbrev r1Wc (c : Dev nD) : Vec Ideal S128x128 .f32 := V c main_v5
abbrev r1Wd (c : Dev nD) : Vec Ideal S128x128 .f32 := V c main_v7
abbrev r1B (c : Dev nD) : Vec Ideal S1x128 .f32 := V c main_v9

/-- The body's arithmetic at entry (p, q) of a block. -/
theorem pay1_apply (x0 x1 : Vec Ideal S5000x128 .f32) (x2 x3 : Vec Ideal S128x128 .f32) (x4 : Vec Ideal S1x128 .f32) (p : Fin 5000) (q : Fin 128) :
    k1_pay1 x0 x1 x2 x3 x4 (ix2 p q) = max (affRow x0 x1 x2 x3 x4 p q) (Ideal.ofBits .f32 0x00000000#32) := by
  unfold k1_pay1
  simp only [shapeCast_self]
  -- each product into the zero block, read at (p, q), is the plain sum over the contracted coordinate
  have mm : ∀ (A : FVec Ideal S5000x128 .bf16) (B : FVec Ideal S128x128 .bf16),
      matmul dot_S5000x128_S128x128_S5000x128_1_0_0_1_n_n none A B (constant S5000x128 .f32 0x00000000#32) (ix2 p q)
        = ∑ k : Fin 128, A (ix2 p k) * B (ix2 k q) :=
    fun A B => Cert.LibMatmulPlain.matmul_plain_zero_apply none A B p q
  rw [maximumf_apply, addf_apply, addf_apply, mm, mm, Cert.LibMatmulPlain.rowBroadcast_apply, broadcast_apply]
  rfl

theorem hz : (![0, 0] : Fin 2 → Nat) = fun _ => 0 := funext fun a => by fin_cases a <;> rfl

/-- Entry (p, q) of the layer on one family of operands is entry (P, Q) of the layer on another when row p of the
    first two operands is row P of theirs, column q of the two weights is column Q of theirs, and the bias agrees
    there: the two sums agree term by term. -/
theorem affRow_congr {r r' : Nat}
    (A B : (⟨2, ![r, 128]⟩ : Shape).Idx → EReal) (A' B' : (⟨2, ![r', 128]⟩ : Shape).Idx → EReal)
    (Wa Wb Wa' Wb' : (⟨2, ![128, 128]⟩ : Shape).Idx → EReal) (b b' : (⟨2, ![1, 128]⟩ : Shape).Idx → EReal)
    (p : Fin r) (P : Fin r') (q Q : Fin 128)
    (hA : ∀ k, A (ix2 p k) = A' (ix2 P k)) (hB : ∀ k, B (ix2 p k) = B' (ix2 P k))
    (hWa : ∀ k, Wa (ix2 k q) = Wa' (ix2 k Q)) (hWb : ∀ k, Wb (ix2 k q) = Wb' (ix2 k Q))
    (hb : b (ix2 0 q) = b' (ix2 0 Q)) :
    affRow A B Wa Wb b p q = affRow A' B' Wa' Wb' b' P Q := by
  unfold affRow
  rw [hb, Finset.sum_congr rfl fun k _ => show A (ix2 p k) * Wa (ix2 k q) = A' (ix2 P k) * Wa' (ix2 k Q) by rw [hA k, hWa k],
    Finset.sum_congr rfl fun k _ => show B (ix2 p k) * Wb (ix2 k q) = B' (ix2 P k) * Wb' (ix2 k Q) by rw [hB k, hWb k]]

/-- Blocks of windows 0, 1 and 5 at point t are rows 5000·t … 5000·t + 4999, all 128 columns; windows 2, 3 and 4
    are their whole arrays at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is the block of `reluAffine2` of the input arrays at rows 5000·t … 5000·t + 4999. -/
theorem flushed1 (c : Dev nD) (t : Fin cfg1.N) :
    (dat1 (F := Ideal) V c).flushed 5 t
      = ((cfg1.win 5).blk t).view.read (Elt Ideal) (reluAffine2 (r1X V c) (r1Hn V c) (r1Wc V c) (r1Wd V c) (r1B V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨e00, e01, e10, e11, e20, e21, e30, e31, e40, e41, e50, e51⟩ := idx_facts1 t
  have hj := eq_ix2 (n0 := 5000) (n1 := 128) ((win1 5).xinj (grid1.coords t) j)
  show k1_pay1 (iblk1 V c 0 t) (iblk1 V c 1 t) (iblk1 V c 2 t) (iblk1 V c 3 t) (iblk1 V c 4 t) ((win1 5).xinj (grid1.coords t) j) = _
  rw [hj]
  refine (pay1_apply _ _ _ _ _ _ _).trans ?_
  show max (affRow (iblk1 V c 0 t) (iblk1 V c 1 t) (iblk1 V c 2 t) (iblk1 V c 3 t) (iblk1 V c 4 t)
        ((win1 5).xinj (grid1.coords t) j 0) ((win1 5).xinj (grid1.coords t) j 1)) (Ideal.ofBits .f32 0x00000000#32)
      = max (affRow (r1X V c) (r1Hn V c) (r1Wc V c) (r1Wd V c) (r1B V c)
        ((((cfg1.win 5).blk t).view.emb j) 0) ((((cfg1.win 5).blk t).view.emb j) 1)) (Ideal.ofBits .f32 0x00000000#32)
  refine congrArg (max · (Ideal.ofBits .f32 0x00000000#32)) (affRow_congr _ _ _ _ _ _ _ _ _ _ _ _ _ _ (fun k => ?_) (fun k => ?_) (fun k => ?_) (fun k => ?_) ?_)
  · show r1X V c (((cfg1.win 0).blk t).view.emb (ix2 ((win1 5).xinj (grid1.coords t) j 0) k)) = r1X V c (ix2 ((((cfg1.win 5).blk t).view.emb j) 0) k)
    refine congrArg (r1X V c) ?_
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show r1Hn V c (((cfg1.win 1).blk t).view.emb (ix2 ((win1 5).xinj (grid1.coords t) j 0) k)) = r1Hn V c (ix2 ((((cfg1.win 5).blk t).view.emb j) 0) k)
    refine congrArg (r1Hn V c) ?_
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show r1Wc V c (((cfg1.win 2).blk t).view.emb (ix2 k ((win1 5).xinj (grid1.coords t) j 1))) = r1Wc V c (ix2 k ((((cfg1.win 5).blk t).view.emb j) 1))
    refine congrArg (r1Wc V c) ?_
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · show r1Wd V c (((cfg1.win 3).blk t).view.emb (ix2 k ((win1 5).xinj (grid1.coords t) j 1))) = r1Wd V c (ix2 k ((((cfg1.win 5).blk t).view.emb j) 1))
    refine congrArg (r1Wd V c) ?_
    funext a; apply Fin.ext
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  · show r1B V c (((cfg1.win 4).blk t).view.emb (ix2 0 ((win1 5).xinj (grid1.coords t) j 1))) = r1B V c (ix2 0 ((((cfg1.win 5).blk t).view.emb j) 1))
    refine congrArg (r1B V c) ?_
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the output array is in point t's block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v30).slice (win1_5.rect t)).set ↔ _
  rw [View.set_slice_whole, Rect.mem_set_unit]
  exact Iff.rfl

/-- Every row lies in the block of the point numbered row / 5000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21, e30, e31, e40, e41, e50, e51⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The kernel's output array, whatever contents `V` the region is entered at. -/
theorem arr1 (c : Dev nD) : (dat1 (F := Ideal) V c).arrAt 5 cfg1.N = reluAffine2 (r1X V c) (r1Hn V c) (r1Wc V c) (r1Wd V c) (r1B V c) := by
  exact (dat1 V c).arrAt_eq_of_cover 5 _ (fun t _ => flushed1 V c t) cover1

end Cert.KernelIdeal.KV.R1

end
-- ==== Proof.KRegion2.lean ====
/-
  The third kernel (the edge update): every block of 8000 rows of its output is half the sum of the same block of
  its two inputs, and the hundred blocks tile the 800000 rows, so the output array is `avg2` of the two input arrays.
-/
import proofs.«103564_j85152021611247_1_alg».proof.Proof.Gen.KernelIdeal.Frame
import proofs.«103564_j85152021611247_1_alg».proof.Proof.Spec
import Idealize.ShloMosaic.Lib.Pipeline.Value

set_option maxRecDepth 16384

noncomputable section

open scoped BigOperators

namespace Cert.KernelIdeal.KV.R2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The two input arrays as the region finds them, at their literal type. -/
abbrev r2A (c : Dev nD) : Vec Ideal S800000x128 .f32 := V c main_v37
abbrev r2B (c : Dev nD) : Vec Ideal S800000x128 .f32 := V c main_v44

theorem hz : (![0, 0] : Fin 2 → Nat) = fun _ => 0 := funext fun a => by fin_cases a <;> rfl

/-- The body's arithmetic at an entry: half the sum. -/
theorem pay2_apply (x0 x1 : Vec Ideal S8000x128 .f32) (j : S8000x128.Idx) :
    k2_pay1 x0 x1 j = (x0 j + x1 j) * Ideal.ofBits .f32 0x3F000000#32 := by
  unfold k2_pay1
  simp only [shapeCast_self]
  rfl

/-- Block t of every window is rows 8000·t … 8000·t + 7999, all 128 columns. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem flushed2 (c : Dev nD) (t : Fin cfg2.N) :
    (dat2 (F := Ideal) V c).flushed 2 t = ((cfg2.win 2).blk t).view.read (Elt Ideal) (avg2 (r2A V c) (r2B V c)) := by
  show (cfg2.win 2).cut (grid2.coords t) ((dat2 V c).after 2 t) = _
  rw [after2_2]
  unfold out2_2
  rw [View.canon_unit_zero hz]
  simp only [View.ld_unit_zero (S := S8000x128) hz]
  funext j
  refine (pay2_apply _ _ _).trans ?_
  obtain ⟨e0, e1, e2, e3, e4, e5⟩ := idx_facts2 t
  show (r2A V c (((cfg2.win 0).blk t).view.emb ((win2 2).xinj (grid2.coords t) j)) + r2B V c (((cfg2.win 1).blk t).view.emb ((win2 2).xinj (grid2.coords t) j))) * Ideal.ofBits .f32 0x3F000000#32
    = (r2A V c (((cfg2.win 2).blk t).view.emb j) + r2B V c (((cfg2.win 2).blk t).view.emb j)) * Ideal.ofBits .f32 0x3F000000#32
  have h0 : ((cfg2.win 0).blk t).view.emb ((win2 2).xinj (grid2.coords t) j) = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb ((win2 2).xinj (grid2.coords t) j) = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 128 + 1 * (j 1).val = win2_2.index t (1 : Fin 2) * 128 + 1 * (j 1).val; omega
  rw [h0, h1]

/-- An index of the output array is in point t's block iff each coordinate is in the block's range. -/
theorem mem_blk2 (t : Fin cfg2.N) (i : S800000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v45).slice (win2_2.rect t)).set ↔ _
  rw [View.set_slice_whole, Rect.mem_set_unit]
  exact Iff.rfl

/-- Every row lies in the block of the point numbered row / 8000. -/
theorem cover2 (i : S800000x128.Idx) : ∃ t : Fin cfg2.N, (cfg2.win 2).flush t = true ∧ i ∈ ((cfg2.win 2).blk t).view.set := by
  have hi0 : (i 0).val < 800000 := (i 0).isLt
  have hi1 : (i 1).val < 128 := (i 1).isLt
  have hN : cfg2.N = 100 := N_2
  let t : Fin cfg2.N := ⟨(i 0).val / 8000, by rw [hN]; omega⟩
  obtain ⟨e0, e1, e2, e3, e4, e5⟩ := idx_facts2 t
  have ht : t.val = (i 0).val / 8000 := rfl
  refine ⟨t, flush2_2 t, ?_⟩
  rw [mem_blk2]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 128 ≤ (i 1).val ∧ (i 1).val < win2_2.index t (1 : Fin 2) * 128 + 128; omega

/-- The third kernel's output array, whatever contents `V` the region is entered at. -/
theorem arr2 (c : Dev nD) : (dat2 (F := Ideal) V c).arrAt 2 cfg2.N = avg2 (r2A V c) (r2B V c) :=
  (dat2 V c).arrAt_eq_of_cover 2 _ (fun t _ => flushed2 V c t) cover2

end Cert.KernelIdeal.KV.R2

end
-- ==== Proof.KWalk.lean ====
/-
  The kernel program's buffers at each boundary of @main, walked from the launch to the return: a stretch of host operations
  computes its results from the contents it is entered at, a kernel leaves its output array at its whole-array function of
  its input arrays and every other buffer as it was. At the return the two result buffers hold `kOut0` and `kOut1` of the
  eight arguments.
-/
import proofs.«103564_j85152021611247_1_alg».proof.Proof.Gen.KernelIdeal.Frame
import proofs.«103564_j85152021611247_1_alg».proof.Proof.KDefs
import proofs.«103564_j85152021611247_1_alg».proof.Proof.KRegion0
import proofs.«103564_j85152021611247_1_alg».proof.Proof.KRegion1
import proofs.«103564_j85152021611247_1_alg».proof.Proof.KRegion2
import Idealize.ShloMosaic.Lib.StableHlo.Run

set_option maxRecDepth 16384

noncomputable section

namespace Cert.KernelIdeal.KV

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The eight arguments as launched. -/
abbrev A0 : TF S100000x128 := m ((c : Thread nD τ).loc main_arg0)
abbrev A1 : TF S800000x128 := m ((c : Thread nD τ).loc main_arg1)
abbrev A2 : TI S800000 := m ((c : Thread nD τ).loc main_arg2)
abbrev A3 : TI S800000 := m ((c : Thread nD τ).loc main_arg3)
abbrev A4 : TF S128x256 := m ((c : Thread nD τ).loc main_arg4)
abbrev A5 : TF S128 := m ((c : Thread nD τ).loc main_arg5)
abbrev A6 : TF S128x256 := m ((c : Thread nD τ).loc main_arg6)
abbrev A7 : TF S128 := m ((c : Thread nD τ).loc main_arg7)

/-! ## After the first stretch: the gathered source rows, the four transposed weight halves, the two bias rows -/

theorem W1_v16 : W1 m ρ c (Proc.devRef .tc main_v16) = rowsAt (A0 m c) (A2 m c) := by
  show StableHlo.after hostOps0 (W0 m ρ c) (Proc.devRef .tc main_v16) = _
  after_results <;> rfl
theorem W1_v1 : W1 m ρ c (Proc.devRef .tc main_v1) = wLo (A4 m c) := by
  show StableHlo.after hostOps0 (W0 m ρ c) (Proc.devRef .tc main_v1) = _
  after_results <;> rfl
theorem W1_v3 : W1 m ρ c (Proc.devRef .tc main_v3) = wHi (A4 m c) := by
  show StableHlo.after hostOps0 (W0 m ρ c) (Proc.devRef .tc main_v3) = _
  after_results <;> rfl
theorem W1_v8 : W1 m ρ c (Proc.devRef .tc main_v8) = bRow (A5 m c) := by
  show StableHlo.after hostOps0 (W0 m ρ c) (Proc.devRef .tc main_v8) = _
  after_results <;> rfl
theorem W1_v5 : W1 m ρ c (Proc.devRef .tc main_v5) = wLo (A6 m c) := by
  show StableHlo.after hostOps0 (W0 m ρ c) (Proc.devRef .tc main_v5) = _
  after_results <;> rfl
theorem W1_v7 : W1 m ρ c (Proc.devRef .tc main_v7) = wHi (A6 m c) := by
  show StableHlo.after hostOps0 (W0 m ρ c) (Proc.devRef .tc main_v7) = _
  after_results <;> rfl
theorem W1_v9 : W1 m ρ c (Proc.devRef .tc main_v9) = bRow (A7 m c) := by
  show StableHlo.after hostOps0 (W0 m ρ c) (Proc.devRef .tc main_v9) = _
  after_results <;> rfl
theorem W1_arg0 : W1 m ρ c (Proc.devRef .tc main_arg0) = A0 m c := by
  show StableHlo.after hostOps0 (W0 m ρ c) (Proc.devRef .tc main_arg0) = _
  after_results <;> rfl
theorem W1_arg1 : W1 m ρ c (Proc.devRef .tc main_arg1) = A1 m c := by
  show StableHlo.after hostOps0 (W0 m ρ c) (Proc.devRef .tc main_arg1) = _
  after_results <;> rfl
theorem W1_arg2 : W1 m ρ c (Proc.devRef .tc main_arg2) = A2 m c := by
  show StableHlo.after hostOps0 (W0 m ρ c) (Proc.devRef .tc main_arg2) = _
  after_results <;> rfl
theorem W1_arg3 : W1 m ρ c (Proc.devRef .tc main_arg3) = A3 m c := by
  show StableHlo.after hostOps0 (W0 m ρ c) (Proc.devRef .tc main_arg3) = _
  after_results <;> rfl

/-! ## After the first kernel: the messages -/

theorem W2_v17 : W2 m ρ c (Proc.devRef .tc main_v17) = kMsg (A0 m c) (A1 m c) (A2 m c) (A4 m c) (A5 m c) := by
  refine (W2_arr m ρ c 5).trans ((R0.arr0 (V1 m ρ) c).trans ?_)
  unfold kMsg
  rw [← W1_v16 m ρ c, ← W1_arg1 m ρ c, ← W1_v1 m ρ c, ← W1_v3 m ρ c, ← W1_v8 m ρ c]
theorem W2_v5_keep : W2 m ρ c (Proc.devRef .tc main_v5) = W1 m ρ c (Proc.devRef .tc main_v5) :=
  W2_of_ne m ρ c main_v5 (by decide)
theorem W2_v7_keep : W2 m ρ c (Proc.devRef .tc main_v7) = W1 m ρ c (Proc.devRef .tc main_v7) :=
  W2_of_ne m ρ c main_v7 (by decide)
theorem W2_v9_keep : W2 m ρ c (Proc.devRef .tc main_v9) = W1 m ρ c (Proc.devRef .tc main_v9) :=
  W2_of_ne m ρ c main_v9 (by decide)
theorem W2_arg0_keep : W2 m ρ c (Proc.devRef .tc main_arg0) = W1 m ρ c (Proc.devRef .tc main_arg0) :=
  W2_of_ne m ρ c main_arg0 (by decide)
theorem W2_arg2_keep : W2 m ρ c (Proc.devRef .tc main_arg2) = W1 m ρ c (Proc.devRef .tc main_arg2) :=
  W2_of_ne m ρ c main_arg2 (by decide)
theorem W2_arg3_keep : W2 m ρ c (Proc.devRef .tc main_arg3) = W1 m ρ c (Proc.devRef .tc main_arg3) :=
  W2_of_ne m ρ c main_arg3 (by decide)

/-! ## After the second stretch: the neighbour means -/

theorem W3_v29 : W3 m ρ c (Proc.devRef .tc main_v29) = kHn (A0 m c) (A1 m c) (A2 m c) (A3 m c) (A4 m c) (A5 m c) := by
  show StableHlo.after hostOps1 (W2 m ρ c) (Proc.devRef .tc main_v29) = _
  after_results
  rw [W2_v17 m ρ c, W2_arg3_keep m ρ c, W1_arg3 m ρ c]
  rfl
theorem W3_v5_keep : W3 m ρ c (Proc.devRef .tc main_v5) = W2 m ρ c (Proc.devRef .tc main_v5) := by
  show StableHlo.after hostOps1 (W2 m ρ c) (Proc.devRef .tc main_v5) = _
  after_results <;> rfl
theorem W3_v7_keep : W3 m ρ c (Proc.devRef .tc main_v7) = W2 m ρ c (Proc.devRef .tc main_v7) := by
  show StableHlo.after hostOps1 (W2 m ρ c) (Proc.devRef .tc main_v7) = _
  after_results <;> rfl
theorem W3_v9_keep : W3 m ρ c (Proc.devRef .tc main_v9) = W2 m ρ c (Proc.devRef .tc main_v9) := by
  show StableHlo.after hostOps1 (W2 m ρ c) (Proc.devRef .tc main_v9) = _
  after_results <;> rfl
theorem W3_arg0_keep : W3 m ρ c (Proc.devRef .tc main_arg0) = W2 m ρ c (Proc.devRef .tc main_arg0) := by
  show StableHlo.after hostOps1 (W2 m ρ c) (Proc.devRef .tc main_arg0) = _
  after_results <;> rfl
theorem W3_arg2_keep : W3 m ρ c (Proc.devRef .tc main_arg2) = W2 m ρ c (Proc.devRef .tc main_arg2) := by
  show StableHlo.after hostOps1 (W2 m ρ c) (Proc.devRef .tc main_arg2) = _
  after_results <;> rfl
theorem W3_arg3_keep : W3 m ρ c (Proc.devRef .tc main_arg3) = W2 m ρ c (Proc.devRef .tc main_arg3) := by
  show StableHlo.after hostOps1 (W2 m ρ c) (Proc.devRef .tc main_arg3) = _
  after_results <;> rfl

/-! ## After the second kernel: the updated node features -/

theorem W4_v30 : W4 m ρ c (Proc.devRef .tc main_v30) = kNewh (A0 m c) (A1 m c) (A2 m c) (A3 m c) (A4 m c) (A5 m c) (A6 m c) (A7 m c) := by
  refine (W4_arr m ρ c 5).trans ((R1.arr1 (V3 m ρ) c).trans ?_)
  unfold kNewh
  rw [← W3_v29 m ρ c, ← W1_arg0 m ρ c, ← W2_arg0_keep m ρ c, ← W3_arg0_keep m ρ c,
    ← W1_v5 m ρ c, ← W2_v5_keep m ρ c, ← W3_v5_keep m ρ c, ← W1_v7 m ρ c, ← W2_v7_keep m ρ c, ← W3_v7_keep m ρ c,
    ← W1_v9 m ρ c, ← W2_v9_keep m ρ c, ← W3_v9_keep m ρ c]
theorem W4_arg2_keep : W4 m ρ c (Proc.devRef .tc main_arg2) = W3 m ρ c (Proc.devRef .tc main_arg2) :=
  W4_of_ne m ρ c main_arg2 (by decide)
theorem W4_arg3_keep : W4 m ρ c (Proc.devRef .tc main_arg3) = W3 m ρ c (Proc.devRef .tc main_arg3) :=
  W4_of_ne m ρ c main_arg3 (by decide)

theorem W4_arg2 : W4 m ρ c (Proc.devRef .tc main_arg2) = A2 m c :=
  (W4_arg2_keep m ρ c).trans ((W3_arg2_keep m ρ c).trans ((W2_arg2_keep m ρ c).trans (W1_arg2 m ρ c)))
theorem W4_arg3 : W4 m ρ c (Proc.devRef .tc main_arg3) = A3 m c :=
  (W4_arg3_keep m ρ c).trans ((W3_arg3_keep m ρ c).trans ((W2_arg3_keep m ρ c).trans (W1_arg3 m ρ c)))

/-! ## After the third stretch: the updated rows of the two endpoints -/

theorem W5_v37 : W5 m ρ c (Proc.devRef .tc main_v37) = rowsAt (kNewh (A0 m c) (A1 m c) (A2 m c) (A3 m c) (A4 m c) (A5 m c) (A6 m c) (A7 m c)) (A2 m c) := by
  show StableHlo.after hostOps2 (W4 m ρ c) (Proc.devRef .tc main_v37) = _
  after_results
  rw [W4_v30 m ρ c, W4_arg2 m ρ c]
  rfl
set_option maxHeartbeats 1000000 in
theorem W5_v44 : W5 m ρ c (Proc.devRef .tc main_v44) = rowsAt (kNewh (A0 m c) (A1 m c) (A2 m c) (A3 m c) (A4 m c) (A5 m c) (A6 m c) (A7 m c)) (A3 m c) := by
  show StableHlo.after hostOps2 (W4 m ρ c) (Proc.devRef .tc main_v44) = _
  after_results_simp
  rw [W4_v30 m ρ c, W4_arg3 m ρ c]
  rfl
theorem W5_v30_keep : W5 m ρ c (Proc.devRef .tc main_v30) = W4 m ρ c (Proc.devRef .tc main_v30) := by
  show StableHlo.after hostOps2 (W4 m ρ c) (Proc.devRef .tc main_v30) = _
  after_results <;> rfl

/-! ## After the third kernel, and the return -/

theorem W6_v45 : W6 m ρ c (Proc.devRef .tc main_v45) = kNewe (A0 m c) (A1 m c) (A2 m c) (A3 m c) (A4 m c) (A5 m c) (A6 m c) (A7 m c) := by
  refine (W6_arr m ρ c 2).trans ((R2.arr2 (V5 m ρ) c).trans ?_)
  unfold kNewe
  rw [← W5_v37 m ρ c, ← W5_v44 m ρ c]
theorem W6_v30_keep : W6 m ρ c (Proc.devRef .tc main_v30) = W5 m ρ c (Proc.devRef .tc main_v30) :=
  W6_of_ne m ρ c main_v30 (by decide)

/-- The first result buffer at the return. -/
theorem W7_v46 : W7 m ρ c (Proc.devRef .tc main_v46) = kOut0 (A0 m c) (A1 m c) (A2 m c) (A3 m c) (A4 m c) (A5 m c) (A6 m c) (A7 m c) := by
  show StableHlo.after hostOps3 (W6 m ρ c) (Proc.devRef .tc main_v46) = _
  after_results
  rw [W6_v30_keep m ρ c, W5_v30_keep m ρ c, W4_v30 m ρ c]
  rfl
/-- The second result buffer at the return. -/
theorem W7_v47 : W7 m ρ c (Proc.devRef .tc main_v47) = kOut1 (A0 m c) (A1 m c) (A2 m c) (A3 m c) (A4 m c) (A5 m c) (A6 m c) (A7 m c) := by
  show StableHlo.after hostOps3 (W6 m ρ c) (Proc.devRef .tc main_v47) = _
  after_results
  rw [W6_v45 m ρ c]
  rfl

end Cert.KernelIdeal.KV

end
-- ==== Proof.KReads.lean ====
/-
  Small reads of the kernel program's host operations at an entry: the two transposed halves of a weight, a bias as a
  row, and a matrix against the same matrix with a unit middle axis inserted.
-/
import proofs.«103564_j85152021611247_1_alg».proof.Proof.KDefs
import Idealize.ShloMosaic.Lib.ValueLayout
import Idealize.ShloMosaic.Lib.Pipeline.Value

noncomputable section

namespace Cert.KernelIdeal.KV

open Cert.KernelIdeal Cert.KernelIdeal.Gen Cert.Sage
open Idealize.ShloMosaic Idealize.ShloMosaic.ValueIdx

/-- The transposed left half at (k, o) is the weight at (o, k). -/
theorem wLo_apply (w : TF S128x256) (k o : Fin 128) : wLo w (ix2 k o) = w (ix2 o ⟨k.val, by omega⟩) := by
  unfold wLo
  rw [transpose_ix2_apply]
  exact extractStridedSlice_apply _ w _ _ _ fun a => match a with
    | ⟨0, _⟩ => by show o.val = 0 + o.val; omega
    | ⟨1, _⟩ => by show k.val = 0 + k.val; omega

/-- The transposed right half at (k, o) is the weight at (o, 128 + k). -/
theorem wHi_apply (w : TF S128x256) (k o : Fin 128) : wHi w (ix2 k o) = w (ix2 o ⟨128 + k.val, by omega⟩) := by
  unfold wHi
  rw [transpose_ix2_apply]
  exact extractStridedSlice_apply _ w _ _ _ fun a => match a with
    | ⟨0, _⟩ => by show o.val = 0 + o.val; omega
    | ⟨1, _⟩ => by show 128 + k.val = 128 + k.val; rfl

/-- The bias row at (0, o) is the bias at o. -/
theorem bRow_apply (b : TF S128) (o : Fin 128) : bRow b (ix2 0 o) = b (ix1 o) := by
  unfold bRow
  refine (shapeCast_addUnit_apply (n := 1) ![128] b shapeCasts_S128_S1x128 (ix2 0 o)).trans ?_
  exact congrArg b (funext fun a => match a with | ⟨0, _⟩ => rfl)

/-- A matrix and the same matrix with a unit middle axis inserted hold the same entries. -/
theorem rel_unsqueeze {α : Type} {n d : Nat} (x : (⟨2, ![n, d]⟩ : Shape).Idx → α)
    (h : (⟨2, ![n, d]⟩ : Shape).BroadcastsInDim ⟨3, ![n, 1, d]⟩ (![0, 2] : Fin 2 → Fin 3)) (hn : n ≠ 1) (hd : d ≠ 1) :
    Rel23 x (broadcastInDim ⟨3, ![n, 1, d]⟩ ![0, 2] h x) := fun a b =>
  (broadcastInDim_apply _ h x (ix3 a 0 b) (ix2 a b) fun c => match c with
    | ⟨0, _⟩ => by show a.val = if n = 1 then 0 else a.val; rw [if_neg hn]
    | ⟨1, _⟩ => by show b.val = if d = 1 then 0 else b.val; rw [if_neg hd]).symm

/-- An array [n, 1, d] is determined by its entries at (a, 0, b). -/
theorem ext3 {α : Type} {n d : Nat} {f g : (⟨3, ![n, 1, d]⟩ : Shape).Idx → α}
    (h : ∀ (a : Fin n) (b : Fin d), f (ix3 a 0 b) = g (ix3 a 0 b)) : f = g := by
  funext i
  have hi : i = ix3 (i 0) 0 (i 2) := by
    funext c
    match c with
    | ⟨0, _⟩ => rfl
    | ⟨1, _⟩ => exact Fin.ext (by have := (i 1).isLt; show (i 1).val = 0; simp at this; omega)
    | ⟨2, _⟩ => rfl
  rw [hi]; exact h _ _

end Cert.KernelIdeal.KV

end
-- ==== Proof.LibRowGatherScatter.lean ====
/-
  Row gathers and row scatter-adds of a matrix [n, d] against the same operations on the array [n, 1, d]
  (a unit middle axis), for any extents.

  `x[idx]` on rows lowers to a gather with one collapsed axis (the row axis) whose start index is read, clamped
  into the rows, off an [e, 1] array of 32-bit words; `segment_sum` lowers to a scatter whose body adds, the row
  read unclamped off such an array, an update whose row is out of range being dropped. Both act on whole rows, so
  they commute with inserting a unit axis between the row and the column axis: `gather_rel`, `scatterAdd_rel`.
-/
import Idealize.ShloMosaic.PureOps.Ideal.Laws
import Idealize.ShloMosaic.Lib.ValueIdx
import proofs.«103564_j85152021611247_1_alg».proof.Proof.Spec

noncomputable section

open scoped BigOperators

namespace Cert.RowOps

open Idealize.ShloMosaic Idealize.ShloMosaic.ValueIdx Cert.Sage

/-- The dimension numbers of a row gather out of a matrix [n, d] at [e, 1] start indices. -/
abbrev gatherRows2 (n e d : Nat)
    (wf : GatherDims.WF ⟨2, ![n, d]⟩ ⟨2, ![e, 1]⟩ ⟨2, ![e, d]⟩ [1] [0] [] [0] [] 1 ![1, d]) :
    GatherDims ⟨2, ![n, d]⟩ ⟨2, ![e, 1]⟩ ⟨2, ![e, d]⟩ where
  offsetDims := [1]
  collapsedSliceDims := [0]
  operandBatchingDims := []
  startIndicesBatchingDims := []
  startIndexMap := [0]
  indexVectorDim := 1
  sliceSizes := ![1, d]
  wf := wf

/-- The same out of an array [n, 1, d]. -/
abbrev gatherRows3 (n e d : Nat)
    (wf : GatherDims.WF ⟨3, ![n, 1, d]⟩ ⟨2, ![e, 1]⟩ ⟨3, ![e, 1, d]⟩ [1, 2] [0] [] [0] [] 1 ![1, 1, d]) :
    GatherDims ⟨3, ![n, 1, d]⟩ ⟨2, ![e, 1]⟩ ⟨3, ![e, 1, d]⟩ where
  offsetDims := [1, 2]
  collapsedSliceDims := [0]
  operandBatchingDims := []
  startIndicesBatchingDims := []
  startIndexMap := [0]
  indexVectorDim := 1
  sliceSizes := ![1, 1, d]
  wf := wf

/-- The dimension numbers of a row scatter into a matrix [n, d] of updates [e, d] at [e, 1] indices. -/
abbrev scatterRows2 (n e d : Nat) (wf : ScatterDims.WF ⟨2, ![n, d]⟩ ⟨2, ![e, 1]⟩ ⟨2, ![e, d]⟩ [1] [0] [0] 1) :
    ScatterDims ⟨2, ![n, d]⟩ ⟨2, ![e, 1]⟩ ⟨2, ![e, d]⟩ where
  updateWindowDims := [1]
  insertedWindowDims := [0]
  scatterDimsToOperandDims := [0]
  indexVectorDim := 1
  wf := wf

/-- The same into an array [n, 1, d] of updates [e, 1, d]. -/
abbrev scatterRows3 (n e d : Nat) (wf : ScatterDims.WF ⟨3, ![n, 1, d]⟩ ⟨2, ![e, 1]⟩ ⟨3, ![e, 1, d]⟩ [1, 2] [0] [0] 1) :
    ScatterDims ⟨3, ![n, 1, d]⟩ ⟨2, ![e, 1]⟩ ⟨3, ![e, 1, d]⟩ where
  updateWindowDims := [1, 2]
  insertedWindowDims := [0]
  scatterDimsToOperandDims := [0]
  indexVectorDim := 1
  wf := wf

/-! ## Indices with a unit middle axis -/

/-- Two rank-2 indices are equal exactly when their coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-3 indices whose middle coordinate is the one of a unit axis are equal exactly when their outer
    coordinates are. -/
theorem ix3_mid_inj {n0 n2 : Nat} (a a' : Fin n0) (b b' : Fin n2) :
    (ix3 a (0 : Fin 1) b = ix3 a' (0 : Fin 1) b') ↔ a = a' ∧ b = b' := by
  constructor
  · intro h
    exact ⟨congrFun h 0, congrFun h 2⟩
  · rintro ⟨rfl, rfl⟩; rfl

/-- Inserting a unit middle axis is a bijection of index sets: (a, b) of [e, d] against (a, 0, b) of [e, 1, d]
    (every index of [e, 1, d] has middle coordinate 0). -/
def unitMid {e d : Nat} : (⟨2, ![e, d]⟩ : Shape).Idx ≃ (⟨3, ![e, 1, d]⟩ : Shape).Idx where
  toFun j := ix3 (j 0) (0 : Fin 1) (j 1)
  invFun j := ix2 (j 0) (j 2)
  left_inv j := (eq_ix2 j).symm
  right_inv j := by
    have h1 : (0 : Fin 1) = j 1 := (Fin.eq_zero (j 1)).symm
    funext c
    match c with
    | ⟨0, _⟩ => rfl
    | ⟨1, _⟩ => exact h1
    | ⟨2, _⟩ => rfl

/-! ## The row gather: which operand entry a result entry reads -/

/-- The row a row gather reads for result row `a`: the start index at (a, 0), read signed and clamped into
    [0, n − 1] (a negative index reads row 0, one past the end reads the last row). -/
def gatherRow (n : Nat) {e w : Nat} (hn : 0 < n) (I : IVec ⟨2, ![e, 1]⟩ w) (a : Fin e) : Fin n :=
  ⟨min (I (ix2 a 0)).toInt.toNat (n - 1), by omega⟩

/-- Out of [n, d], on the row axis: the operand coordinate of result (a, b) is the clamped start index alone (the
    axis is collapsed, so it has no offset coordinate, and there are no batching axes). -/
private theorem g2_val0 {n e d w : Nat} (wf : GatherDims.WF ⟨2, ![n, d]⟩ ⟨2, ![e, 1]⟩ ⟨2, ![e, d]⟩ [1] [0] [] [0] [] 1 ![1, d])
    (I : IVec ⟨2, ![e, 1]⟩ w) (a : Fin e) (b : Fin d) :
    ((gatherRows2 n e d wf).operandIdx (ix2 a b) I 0).val = min (I (ix2 a 0)).toInt.toNat (n - 1) := by
  show (gatherRows2 n e d wf).start (ix2 a b) I 0 + (gatherRows2 n e d wf).batchCoord (ix2 a b) 0
    + (gatherRows2 n e d wf).offCoord (ix2 a b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows2 n e d wf).startIndexMap from List.mem_singleton.mpr rfl)]
  -- the start index is read at the result's batch coordinate a, component 0 of the index vector
  have hsi : (gatherRows2 n e d wf).siIdx (ix2 a b) ⟨List.idxOf (0 : Fin 2) (gatherRows2 n e d wf).startIndexMap,
      List.idxOf_lt_length_iff.2 (List.mem_singleton.mpr rfl)⟩ = ix2 a 0 := by
    funext k; refine Fin.ext ?_
    match k with
    | ⟨0, _⟩ => rfl
    | ⟨1, _⟩ => rfl
  rw [hsi]
  rfl

/-- Out of [n, d], on the column axis: the operand coordinate of result (a, b) is the offset coordinate b alone
    (the axis is not start-indexed, so its slice starts at 0). -/
private theorem g2_val1 {n e d w : Nat} (wf : GatherDims.WF ⟨2, ![n, d]⟩ ⟨2, ![e, 1]⟩ ⟨2, ![e, d]⟩ [1] [0] [] [0] [] 1 ![1, d])
    (I : IVec ⟨2, ![e, 1]⟩ w) (a : Fin e) (b : Fin d) :
    ((gatherRows2 n e d wf).operandIdx (ix2 a b) I 1).val = b.val := by
  show (gatherRows2 n e d wf).start (ix2 a b) I 1 + (gatherRows2 n e d wf).batchCoord (ix2 a b) 1
    + (gatherRows2 n e d wf).offCoord (ix2 a b) 1 = _
  rw [GatherDims.batchCoord_eq_zero _ _ _ List.not_mem_nil]
  unfold GatherDims.start
  rw [dif_neg (show (1 : Fin 2) ∉ ([0] : List (Fin 2)) by decide)]
  simp only [Nat.add_zero, Nat.zero_add]
  rfl

/-- A row gather out of [n, d] reads, for result (a, b), the operand at (clamped start of row a, b). -/
theorem gatherRows2_operandIdx {n e d w : Nat} (hn : 0 < n) (wf : GatherDims.WF ⟨2, ![n, d]⟩ ⟨2, ![e, 1]⟩ ⟨2, ![e, d]⟩ [1] [0] [] [0] [] 1 ![1, d])
    (I : IVec ⟨2, ![e, 1]⟩ w) (a : Fin e) (b : Fin d) :
    (gatherRows2 n e d wf).operandIdx (ix2 a b) I = ix2 (gatherRow n hn I a) b := by
  funext c
  refine Fin.ext ?_
  match c with
  | ⟨0, _⟩ => exact g2_val0 wf I a b
  | ⟨1, _⟩ => exact g2_val1 wf I a b

/-- Out of [n, 1, d], on the row axis: the operand coordinate of result (a, 0, b) is the same clamped start index
    (the row axis has extent n and slice size 1 as in the matrix case). -/
private theorem g3_val0 {n e d w : Nat} (wf : GatherDims.WF ⟨3, ![n, 1, d]⟩ ⟨2, ![e, 1]⟩ ⟨3, ![e, 1, d]⟩ [1, 2] [0] [] [0] [] 1 ![1, 1, d])
    (I : IVec ⟨2, ![e, 1]⟩ w) (a : Fin e) (b : Fin d) :
    ((gatherRows3 n e d wf).operandIdx (ix3 a 0 b) I 0).val = min (I (ix2 a 0)).toInt.toNat (n - 1) := by
  show (gatherRows3 n e d wf).start (ix3 a 0 b) I 0 + (gatherRows3 n e d wf).batchCoord (ix3 a 0 b) 0
    + (gatherRows3 n e d wf).offCoord (ix3 a 0 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (gatherRows3 n e d wf).startIndexMap from List.mem_singleton.mpr rfl)]
  have hsi : (gatherRows3 n e d wf).siIdx (ix3 a 0 b) ⟨List.idxOf (0 : Fin 3) (gatherRows3 n e d wf).startIndexMap,
      List.idxOf_lt_length_iff.2 (List.mem_singleton.mpr rfl)⟩ = ix2 a 0 := by
    funext k; refine Fin.ext ?_
    match k with
    | ⟨0, _⟩ => rfl
    | ⟨1, _⟩ => rfl
  rw [hsi]
  rfl

/-- Out of [n, 1, d], on the unit axis: the operand coordinate of result (a, 0, b) is the offset coordinate 0. -/
private theorem g3_val1 {n e d w : Nat} (wf : GatherDims.WF ⟨3, ![n, 1, d]⟩ ⟨2, ![e, 1]⟩ ⟨3, ![e, 1, d]⟩ [1, 2] [0] [] [0] [] 1 ![1, 1, d])
    (I : IVec ⟨2, ![e, 1]⟩ w) (a : Fin e) (b : Fin d) :
    ((gatherRows3 n e d wf).operandIdx (ix3 a 0 b) I 1).val = 0 := by
  show (gatherRows3 n e d wf).start (ix3 a 0 b) I 1 + (gatherRows3 n e d wf).batchCoord (ix3 a 0 b) 1
    + (gatherRows3 n e d wf).offCoord (ix3 a 0 b) 1 = _
  rw [GatherDims.batchCoord_eq_zero _ _ _ List.not_mem_nil]
  unfold GatherDims.start
  rw [dif_neg (show (1 : Fin 3) ∉ ([0] : List (Fin 3)) by decide)]
  simp only [Nat.add_zero, Nat.zero_add]
  rfl

/-- Out of [n, 1, d], on the column axis: the operand coordinate of result (a, 0, b) is the offset coordinate b. -/
private theorem g3_val2 {n e d w : Nat} (wf : GatherDims.WF ⟨3, ![n, 1, d]⟩ ⟨2, ![e, 1]⟩ ⟨3, ![e, 1, d]⟩ [1, 2] [0] [] [0] [] 1 ![1, 1, d])
    (I : IVec ⟨2, ![e, 1]⟩ w) (a : Fin e) (b : Fin d) :
    ((gatherRows3 n e d wf).operandIdx (ix3 a 0 b) I 2).val = b.val := by
  show (gatherRows3 n e d wf).start (ix3 a 0 b) I 2 + (gatherRows3 n e d wf).batchCoord (ix3 a 0 b) 2
    + (gatherRows3 n e d wf).offCoord (ix3 a 0 b) 2 = _
  rw [GatherDims.batchCoord_eq_zero _ _ _ List.not_mem_nil]
  unfold GatherDims.start
  rw [dif_neg (show (2 : Fin 3) ∉ ([0] : List (Fin 3)) by decide)]
  simp only [Nat.add_zero, Nat.zero_add]
  rfl

/-- A row gather out of [n, 1, d] reads, for result (a, 0, b), the operand at (clamped start of row a, 0, b):
    the same row as the gather out of the matrix. -/
theorem gatherRows3_operandIdx {n e d w : Nat} (hn : 0 < n) (wf : GatherDims.WF ⟨3, ![n, 1, d]⟩ ⟨2, ![e, 1]⟩ ⟨3, ![e, 1, d]⟩ [1, 2] [0] [] [0] [] 1 ![1, 1, d])
    (I : IVec ⟨2, ![e, 1]⟩ w) (a : Fin e) (b : Fin d) :
    (gatherRows3 n e d wf).operandIdx (ix3 a 0 b) I = ix3 (gatherRow n hn I a) 0 b := by
  funext c
  refine Fin.ext ?_
  match c with
  | ⟨0, _⟩ => exact g3_val0 wf I a b
  | ⟨1, _⟩ => exact g3_val1 wf I a b
  | ⟨2, _⟩ => exact g3_val2 wf I a b

/-! ## The row scatter: where an update entry lands -/

/-- The row a row scatter lands update row `a` on: the index at (a, 0) read signed and NOT clamped, when it is one
    of the n rows; none otherwise (that update row is dropped). -/
def landRow (n : Nat) {e w : Nat} (I : IVec ⟨2, ![e, 1]⟩ w) (a : Fin e) : Option (Fin n) :=
  if h : 0 ≤ (I (ix2 a 0)).toInt ∧ (I (ix2 a 0)).toInt < n then some ⟨(I (ix2 a 0)).toInt.toNat, by omega⟩ else none

/-- Into [n, d]: the window of update (a, b) starts, on the row axis, at the signed index read at (a, 0). -/
private theorem s2_start0 {n e d w : Nat} (wf : ScatterDims.WF ⟨2, ![n, d]⟩ ⟨2, ![e, 1]⟩ ⟨2, ![e, d]⟩ [1] [0] [0] 1)
    (I : IVec ⟨2, ![e, 1]⟩ w) (a : Fin e) (b : Fin d) :
    (scatterRows2 n e d wf).start (ix2 a b) I 0 = (I (ix2 a 0)).toInt := by
  unfold ScatterDims.start
  rw [dif_pos (show (0 : Fin 2) ∈ (scatterRows2 n e d wf).scatterDimsToOperandDims from List.mem_singleton.mpr rfl)]
  have hsi : (scatterRows2 n e d wf).siIdx (ix2 a b) ⟨List.idxOf (0 : Fin 2) (scatterRows2 n e d wf).scatterDimsToOperandDims,
      List.idxOf_lt_length_iff.2 (List.mem_singleton.mpr rfl)⟩ = ix2 a 0 := by
    funext k; refine Fin.ext ?_
    match k with
    | ⟨0, _⟩ => rfl
    | ⟨1, _⟩ => rfl
  rw [hsi]

/-- Into [n, d]: on the column axis, which the index map does not name, the window starts at 0. -/
private theorem s2_start1 {n e d w : Nat} (wf : ScatterDims.WF ⟨2, ![n, d]⟩ ⟨2, ![e, 1]⟩ ⟨2, ![e, d]⟩ [1] [0] [0] 1)
    (I : IVec ⟨2, ![e, 1]⟩ w) (a : Fin e) (b : Fin d) :
    (scatterRows2 n e d wf).start (ix2 a b) I 1 = 0 := by
  unfold ScatterDims.start
  rw [dif_neg (show (1 : Fin 2) ∉ ([0] : List (Fin 2)) by decide)]

/-- Into [n, d]: the row axis is an inserted window axis, so the window coordinate on it is 0. -/
private theorem s2_window0 {n e d : Nat} (wf : ScatterDims.WF ⟨2, ![n, d]⟩ ⟨2, ![e, 1]⟩ ⟨2, ![e, d]⟩ [1] [0] [0] 1)
    (a : Fin e) (b : Fin d) : (scatterRows2 n e d wf).window (ix2 a b) 0 = 0 := by
  unfold ScatterDims.window
  have hk : (0 : Fin 2) ∉ (scatterRows2 n e d wf).sKept := by
    show (0 : Fin 2) ∉ (List.finRange 2).filter (fun x => x ∉ ([0] : List (Fin 2)))
    decide
  rw [dif_neg hk]

/-- Into [n, d]: on the column axis the window coordinate of update (a, b) is b. -/
private theorem s2_window1 {n e d : Nat} (wf : ScatterDims.WF ⟨2, ![n, d]⟩ ⟨2, ![e, 1]⟩ ⟨2, ![e, d]⟩ [1] [0] [0] 1)
    (a : Fin e) (b : Fin d) : (scatterRows2 n e d wf).window (ix2 a b) 1 = b.val := by
  unfold ScatterDims.window
  have hk : (1 : Fin 2) ∈ (scatterRows2 n e d wf).sKept := by
    show (1 : Fin 2) ∈ (List.finRange 2).filter (fun x => x ∉ ([0] : List (Fin 2)))
    decide
  rw [dif_pos hk]
  rfl

/-- A row scatter into [n, d] lands update (a, b) at (r, b) when update row a lands on row r, and drops it when the
    row index is out of range (the column coordinate b < d is always in range). -/
theorem scatterRows2_resultIdx {n e d w : Nat} (wf : ScatterDims.WF ⟨2, ![n, d]⟩ ⟨2, ![e, 1]⟩ ⟨2, ![e, d]⟩ [1] [0] [0] 1)
    (I : IVec ⟨2, ![e, 1]⟩ w) (a : Fin e) (b : Fin d) :
    (scatterRows2 n e d wf).resultIdx? (ix2 a b) I = (landRow n I a).map (fun r => ix2 r b) := by
  unfold ScatterDims.resultIdx? landRow
  by_cases hl : 0 ≤ (I (ix2 a 0)).toInt ∧ (I (ix2 a 0)).toInt < n
  · have hall : ∀ c : Fin 2, 0 ≤ (scatterRows2 n e d wf).start (ix2 a b) I c + (scatterRows2 n e d wf).window (ix2 a b) c ∧
        (scatterRows2 n e d wf).start (ix2 a b) I c + (scatterRows2 n e d wf).window (ix2 a b) c
          < ((⟨2, ![n, d]⟩ : Shape).size c : Nat) := by
      intro c
      match c with
      | ⟨0, _⟩ =>
        show 0 ≤ (scatterRows2 n e d wf).start (ix2 a b) I 0 + ((scatterRows2 n e d wf).window (ix2 a b) 0 : Nat) ∧
          (scatterRows2 n e d wf).start (ix2 a b) I 0 + ((scatterRows2 n e d wf).window (ix2 a b) 0 : Nat) < (n : Nat)
        rw [s2_start0 wf I a b, s2_window0 wf a b]; omega
      | ⟨1, _⟩ =>
        have hb := b.isLt
        show 0 ≤ (scatterRows2 n e d wf).start (ix2 a b) I 1 + ((scatterRows2 n e d wf).window (ix2 a b) 1 : Nat) ∧
          (scatterRows2 n e d wf).start (ix2 a b) I 1 + ((scatterRows2 n e d wf).window (ix2 a b) 1 : Nat) < (d : Nat)
        rw [s2_start1 wf I a b, s2_window1 wf a b]; omega
    rw [dif_pos hall, dif_pos hl]
    show some _ = some _
    congr 1
    funext c
    refine Fin.ext ?_
    match c with
    | ⟨0, _⟩ =>
      show ((scatterRows2 n e d wf).start (ix2 a b) I 0 + ((scatterRows2 n e d wf).window (ix2 a b) 0 : Nat)).toNat
        = (I (ix2 a 0)).toInt.toNat
      rw [s2_start0 wf I a b, s2_window0 wf a b]; simp
    | ⟨1, _⟩ =>
      show ((scatterRows2 n e d wf).start (ix2 a b) I 1 + ((scatterRows2 n e d wf).window (ix2 a b) 1 : Nat)).toNat
        = b.val
      rw [s2_start1 wf I a b, s2_window1 wf a b]; simp
  · -- the row axis alone is out of range
    have hnot : ¬ ∀ c : Fin 2, 0 ≤ (scatterRows2 n e d wf).start (ix2 a b) I c + (scatterRows2 n e d wf).window (ix2 a b) c ∧
        (scatterRows2 n e d wf).start (ix2 a b) I c + (scatterRows2 n e d wf).window (ix2 a b) c
          < ((⟨2, ![n, d]⟩ : Shape).size c : Nat) := by
      intro hall
      have h0 := hall 0
      rw [s2_start0 wf I a b, s2_window0 wf a b] at h0
      apply hl
      have h0' : 0 ≤ (I (ix2 a 0)).toInt + ((0 : Nat) : Int) ∧ (I (ix2 a 0)).toInt + ((0 : Nat) : Int) < (n : Nat) := h0
      omega
    rw [dif_neg hnot, dif_neg hl]
    rfl

/-- Into [n, 1, d]: the window of update (a, 0, b) starts, on the row axis, at the same signed index read at (a, 0). -/
private theorem s3_start0 {n e d w : Nat} (wf : ScatterDims.WF ⟨3, ![n, 1, d]⟩ ⟨2, ![e, 1]⟩ ⟨3, ![e, 1, d]⟩ [1, 2] [0] [0] 1)
    (I : IVec ⟨2, ![e, 1]⟩ w) (a : Fin e) (b : Fin d) :
    (scatterRows3 n e d wf).start (ix3 a 0 b) I 0 = (I (ix2 a 0)).toInt := by
  unfold ScatterDims.start
  rw [dif_pos (show (0 : Fin 3) ∈ (scatterRows3 n e d wf).scatterDimsToOperandDims from List.mem_singleton.mpr rfl)]
  have hsi : (scatterRows3 n e d wf).siIdx (ix3 a 0 b) ⟨List.idxOf (0 : Fin 3) (scatterRows3 n e d wf).scatterDimsToOperandDims,
      List.idxOf_lt_length_iff.2 (List.mem_singleton.mpr rfl)⟩ = ix2 a 0 := by
    funext k; refine Fin.ext ?_
    match k with
    | ⟨0, _⟩ => rfl
    | ⟨1, _⟩ => rfl
  rw [hsi]

/-- Into [n, 1, d]: on the unit axis the window starts at 0. -/
private theorem s3_start1 {n e d w : Nat} (wf : ScatterDims.WF ⟨3, ![n, 1, d]⟩ ⟨2, ![e, 1]⟩ ⟨3, ![e, 1, d]⟩ [1, 2] [0] [0] 1)
    (I : IVec ⟨2, ![e, 1]⟩ w) (a : Fin e) (b : Fin d) :
    (scatterRows3 n e d wf).start (ix3 a 0 b) I 1 = 0 := by
  unfold ScatterDims.start
  rw [dif_neg (show (1 : Fin 3) ∉ ([0] : List (Fin 3)) by decide)]

/-- Into [n, 1, d]: on the column axis the window starts at 0. -/
private theorem s3_start2 {n e d w : Nat} (wf : ScatterDims.WF ⟨3, ![n, 1, d]⟩ ⟨2, ![e, 1]⟩ ⟨3, ![e, 1, d]⟩ [1, 2] [0] [0] 1)
    (I : IVec ⟨2, ![e, 1]⟩ w) (a : Fin e) (b : Fin d) :
    (scatterRows3 n e d wf).start (ix3 a 0 b) I 2 = 0 := by
  unfold ScatterDims.start
  rw [dif_neg (show (2 : Fin 3) ∉ ([0] : List (Fin 3)) by decide)]

/-- Into [n, 1, d]: the row axis is an inserted window axis, so the window coordinate on it is 0. -/
private theorem s3_window0 {n e d : Nat} (wf : ScatterDims.WF ⟨3, ![n, 1, d]⟩ ⟨2, ![e, 1]⟩ ⟨3, ![e, 1, d]⟩ [1, 2] [0] [0] 1)
    (a : Fin e) (b : Fin d) : (scatterRows3 n e d wf).window (ix3 a 0 b) 0 = 0 := by
  unfold ScatterDims.window
  have hk : (0 : Fin 3) ∉ (scatterRows3 n e d wf).sKept := by
    show (0 : Fin 3) ∉ (List.finRange 3).filter (fun x => x ∉ ([0] : List (Fin 3)))
    decide
  rw [dif_neg hk]

/-- Into [n, 1, d]: on the unit axis the window coordinate of update (a, 0, b) is 0. -/
private theorem s3_window1 {n e d : Nat} (wf : ScatterDims.WF ⟨3, ![n, 1, d]⟩ ⟨2, ![e, 1]⟩ ⟨3, ![e, 1, d]⟩ [1, 2] [0] [0] 1)
    (a : Fin e) (b : Fin d) : (scatterRows3 n e d wf).window (ix3 a 0 b) 1 = 0 := by
  unfold ScatterDims.window
  have hk : (1 : Fin 3) ∈ (scatterRows3 n e d wf).sKept := by
    show (1 : Fin 3) ∈ (List.finRange 3).filter (fun x => x ∉ ([0] : List (Fin 3)))
    decide
  rw [dif_pos hk]
  rfl

/-- Into [n, 1, d]: on the column axis the window coordinate of update (a, 0, b) is b. -/
private theorem s3_window2 {n e d : Nat} (wf : ScatterDims.WF ⟨3, ![n, 1, d]⟩ ⟨2, ![e, 1]⟩ ⟨3, ![e, 1, d]⟩ [1, 2] [0] [0] 1)
    (a : Fin e) (b : Fin d) : (scatterRows3 n e d wf).window (ix3 a 0 b) 2 = b.val := by
  unfold ScatterDims.window
  have hk : (2 : Fin 3) ∈ (scatterRows3 n e d wf).sKept := by
    show (2 : Fin 3) ∈ (List.finRange 3).filter (fun x => x ∉ ([0] : List (Fin 3)))
    decide
  rw [dif_pos hk]
  rfl

/-- A row scatter into [n, 1, d] lands update (a, 0, b) at (r, 0, b) when update row a lands on row r, and drops it
    otherwise: the same row, by the same test, as the scatter into the matrix. -/
theorem scatterRows3_resultIdx {n e d w : Nat} (wf : ScatterDims.WF ⟨3, ![n, 1, d]⟩ ⟨2, ![e, 1]⟩ ⟨3, ![e, 1, d]⟩ [1, 2] [0] [0] 1)
    (I : IVec ⟨2, ![e, 1]⟩ w) (a : Fin e) (b : Fin d) :
    (scatterRows3 n e d wf).resultIdx? (ix3 a 0 b) I = (landRow n I a).map (fun r => ix3 r 0 b) := by
  unfold ScatterDims.resultIdx? landRow
  by_cases hl : 0 ≤ (I (ix2 a 0)).toInt ∧ (I (ix2 a 0)).toInt < n
  · have hall : ∀ c : Fin 3, 0 ≤ (scatterRows3 n e d wf).start (ix3 a 0 b) I c + (scatterRows3 n e d wf).window (ix3 a 0 b) c ∧
        (scatterRows3 n e d wf).start (ix3 a 0 b) I c + (scatterRows3 n e d wf).window (ix3 a 0 b) c
          < ((⟨3, ![n, 1, d]⟩ : Shape).size c : Nat) := by
      intro c
      match c with
      | ⟨0, _⟩ =>
        show 0 ≤ (scatterRows3 n e d wf).start (ix3 a 0 b) I 0 + ((scatterRows3 n e d wf).window (ix3 a 0 b) 0 : Nat) ∧
          (scatterRows3 n e d wf).start (ix3 a 0 b) I 0 + ((scatterRows3 n e d wf).window (ix3 a 0 b) 0 : Nat) < (n : Nat)
        rw [s3_start0 wf I a b, s3_window0 wf a b]; omega
      | ⟨1, _⟩ =>
        show 0 ≤ (scatterRows3 n e d wf).start (ix3 a 0 b) I 1 + ((scatterRows3 n e d wf).window (ix3 a 0 b) 1 : Nat) ∧
          (scatterRows3 n e d wf).start (ix3 a 0 b) I 1 + ((scatterRows3 n e d wf).window (ix3 a 0 b) 1 : Nat) < (1 : Nat)
        rw [s3_start1 wf I a b, s3_window1 wf a b]; omega
      | ⟨2, _⟩ =>
        have hb := b.isLt
        show 0 ≤ (scatterRows3 n e d wf).start (ix3 a 0 b) I 2 + ((scatterRows3 n e d wf).window (ix3 a 0 b) 2 : Nat) ∧
          (scatterRows3 n e d wf).start (ix3 a 0 b) I 2 + ((scatterRows3 n e d wf).window (ix3 a 0 b) 2 : Nat) < (d : Nat)
        rw [s3_start2 wf I a b, s3_window2 wf a b]; omega
    rw [dif_pos hall, dif_pos hl]
    show some _ = some _
    congr 1
    funext c
    refine Fin.ext ?_
    match c with
    | ⟨0, _⟩ =>
      show ((scatterRows3 n e d wf).start (ix3 a 0 b) I 0 + ((scatterRows3 n e d wf).window (ix3 a 0 b) 0 : Nat)).toNat
        = (I (ix2 a 0)).toInt.toNat
      rw [s3_start0 wf I a b, s3_window0 wf a b]; simp
    | ⟨1, _⟩ =>
      show ((scatterRows3 n e d wf).start (ix3 a 0 b) I 1 + ((scatterRows3 n e d wf).window (ix3 a 0 b) 1 : Nat)).toNat
        = 0
      rw [s3_start1 wf I a b, s3_window1 wf a b]; simp
    | ⟨2, _⟩ =>
      show ((scatterRows3 n e d wf).start (ix3 a 0 b) I 2 + ((scatterRows3 n e d wf).window (ix3 a 0 b) 2 : Nat)).toNat
        = b.val
      rw [s3_start2 wf I a b, s3_window2 wf a b]; simp
  · -- the row axis alone is out of range
    have hnot : ¬ ∀ c : Fin 3, 0 ≤ (scatterRows3 n e d wf).start (ix3 a 0 b) I c + (scatterRows3 n e d wf).window (ix3 a 0 b) c ∧
        (scatterRows3 n e d wf).start (ix3 a 0 b) I c + (scatterRows3 n e d wf).window (ix3 a 0 b) c
          < ((⟨3, ![n, 1, d]⟩ : Shape).size c : Nat) := by
      intro hall
      have h0 := hall 0
      rw [s3_start0 wf I a b, s3_window0 wf a b] at h0
      apply hl
      have h0' : 0 ≤ (I (ix2 a 0)).toInt + ((0 : Nat) : Int) ∧ (I (ix2 a 0)).toInt + ((0 : Nat) : Int) < (n : Nat) := h0
      omega
    rw [dif_neg hnot, dif_neg hl]
    rfl

/-- Update (a, b') lands on the matrix entry (r, b) exactly when update row a lands on row r and b' = b. -/
theorem landRow_map2_eq {n e d w : Nat} (I : IVec ⟨2, ![e, 1]⟩ w) (a : Fin e) (b' : Fin d) (r : Fin n) (b : Fin d) :
    (landRow n I a).map (fun r' => ix2 r' b') = some (ix2 r b) ↔ landRow n I a = some r ∧ b' = b := by
  cases landRow n I a with
  | none => simp
  | some r' => simp only [Option.map_some, Option.some.injEq]; exact ix2_inj r' r b' b

/-- Update (a, 0, b') lands on the entry (r, 0, b) exactly when update row a lands on row r and b' = b: the same
    condition as for the matrix. -/
theorem landRow_map3_eq {n e d w : Nat} (I : IVec ⟨2, ![e, 1]⟩ w) (a : Fin e) (b' : Fin d) (r : Fin n) (b : Fin d) :
    (landRow n I a).map (fun r' => ix3 r' (0 : Fin 1) b') = some (ix3 r 0 b) ↔ landRow n I a = some r ∧ b' = b := by
  cases landRow n I a with
  | none => simp
  | some r' => simp only [Option.map_some, Option.some.injEq]; exact ix3_mid_inj r' r b' b

/-! ## The two operations commute with the unit middle axis -/

/-- A row gather commutes with the unit middle axis. -/
theorem gather_rel {α : Type} {n e d w : Nat} (hn : 0 < n)
    (wf2 : GatherDims.WF ⟨2, ![n, d]⟩ ⟨2, ![e, 1]⟩ ⟨2, ![e, d]⟩ [1] [0] [] [0] [] 1 ![1, d])
    (wf3 : GatherDims.WF ⟨3, ![n, 1, d]⟩ ⟨2, ![e, 1]⟩ ⟨3, ![e, 1, d]⟩ [1, 2] [0] [] [0] [] 1 ![1, 1, d])
    (xK : (⟨2, ![n, d]⟩ : Shape).Idx → α) (xR : (⟨3, ![n, 1, d]⟩ : Shape).Idx → α) (h : Rel23 xK xR)
    (I : IVec ⟨2, ![e, 1]⟩ w) :
    Rel23 (Host.gather (gatherRows2 n e d wf2) xK I) (Host.gather (gatherRows3 n e d wf3) xR I) := by
  -- both sides read the operand at the same clamped row, column b
  intro a b
  unfold Host.gather
  rw [gatherRows2_operandIdx hn wf2 I a b, gatherRows3_operandIdx hn wf3 I a b]
  exact h (gatherRow n hn I a) b

/-- A row scatter-add, at the extended reals, commutes with the unit middle axis. -/
theorem scatterAdd_rel {n e d w : Nat} {φ : FTy}
    (wf2 : ScatterDims.WF ⟨2, ![n, d]⟩ ⟨2, ![e, 1]⟩ ⟨2, ![e, d]⟩ [1] [0] [0] 1)
    (wf3 : ScatterDims.WF ⟨3, ![n, 1, d]⟩ ⟨2, ![e, 1]⟩ ⟨3, ![e, 1, d]⟩ [1, 2] [0] [0] 1)
    (xK : FVec Ideal ⟨2, ![n, d]⟩ φ) (xR : FVec Ideal ⟨3, ![n, 1, d]⟩ φ) (hx : Rel23 xK xR)
    (uK : FVec Ideal ⟨2, ![e, d]⟩ φ) (uR : FVec Ideal ⟨3, ![e, 1, d]⟩ φ) (hu : Rel23 uK uR)
    (I : IVec ⟨2, ![e, 1]⟩ w) :
    Rel23 (Host.scatterAdd (scatterRows2 n e d wf2) xK I uK) (Host.scatterAdd (scatterRows3 n e d wf3) xR I uR) := by
  -- entry (r, b) is the operand's entry plus the sum of the updates landing on it; the bijection (a, b') ↦ (a, 0, b')
  -- carries the updates landing on (r, b) onto those landing on (r, 0, b), with equal values
  intro r b
  show Ideal.hostScatterAdd (scatterRows2 n e d wf2) xK I uK (ix2 r b)
    = Ideal.hostScatterAdd (scatterRows3 n e d wf3) xR I uR (ix3 r 0 b)
  unfold Ideal.hostScatterAdd
  rw [hx r b]
  congr 1
  refine Finset.sum_equiv unitMid ?_ ?_
  · intro j
    obtain ⟨a, b', rfl⟩ : ∃ (a : Fin e) (b' : Fin d), j = ix2 a b' := ⟨j 0, j 1, eq_ix2 j⟩
    simp only [Finset.mem_filter, Finset.mem_univ, true_and]
    show (scatterRows2 n e d wf2).resultIdx? (ix2 a b') I = some (ix2 r b) ↔
      (scatterRows3 n e d wf3).resultIdx? (ix3 a 0 b') I = some (ix3 r 0 b)
    rw [scatterRows2_resultIdx, scatterRows3_resultIdx, landRow_map2_eq, landRow_map3_eq]
  · intro j _
    obtain ⟨a, b', rfl⟩ : ∃ (a : Fin e) (b' : Fin d), j = ix2 a b' := ⟨j 0, j 1, eq_ix2 j⟩
    exact hu a b'

end Cert.RowOps

end
-- ==== Proof.RefMsg.lean ====
/-
  The messages: the kernel's per-edge message array [800000, 128] holds the entries of the reference's [800000, 1, 128] stage:
  the reference contracts the concatenation of the gathered source row and the edge row (256 entries) with a weight row; split at
  128, the two halves are the kernel's two products with the transposed weight halves; the bias is added on both sides.
-/
import proofs.«103564_j85152021611247_1_alg».proof.Proof.KReads
import proofs.«103564_j85152021611247_1_alg».proof.Proof.LibRowGatherScatter
import proofs.«103564_j85152021611247_1_alg».proof.Proof.Gen.ReferenceIdeal.Read
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.Bridge

open Cert.Sage Cert.RowOps Cert.KernelIdeal.KV Cert.ReferenceIdeal.Read
open Idealize.ShloMosaic Idealize.ShloMosaic.ValueIdx

/-- The gathered source rows: the kernel's [800000, 128] gather holds the entries of the reference's [800000, 1, 128]
    gather. Both read the same wrapped row indices as a column [800000, 1]; the reference's operand is the node features
    with a unit middle axis inserted, and a row gather commutes with that axis. -/
theorem rows_rel (x0 : TF Cert.KernelIdeal.S100000x128) (x2 : TI Cert.KernelIdeal.S800000) :
    Rel23 (rowsAt x0 x2) (val_main_v8 (F := Ideal) x0 x2) :=
  gather_rel (n := 100000) (e := 800000) (d := 128) (by decide)
    Cert.KernelIdeal.Facts₀.gather_S100000x128_S800000x1_S800000x128_1_0_n_n_0_1_1128_wf
    Cert.ReferenceIdeal.Facts₀.gather_S100000x1x128_S800000x1_S800000x1x128_12_0_n_n_0_1_11128_wf
    x0 (val_main_v0 (F := Ideal) x0) (rel_unsqueeze x0 _ (by decide) (by decide)) (colIdx (wrapIdx x2))

/-- The weight entry the reference's contraction meets at position k < 128 of output column o: w(o, k). -/
theorem ridx_lo (e : Fin 800000) (o k : Fin 128) :
    ridx_main_v10 (ix3 e 0 o) (Fin.castAdd 128 k) = ix2 o (⟨k.val, by omega⟩ : Fin 256) := by
  funext a
  match a with
  | ⟨0, _⟩ => rfl
  | ⟨1, _⟩ => rfl

/-- The weight entry the reference's contraction meets at position 128 + k of output column o: w(o, 128 + k). -/
theorem ridx_hi (e : Fin 800000) (o k : Fin 128) :
    ridx_main_v10 (ix3 e 0 o) (Fin.natAdd 128 k) = ix2 o (⟨128 + k.val, by omega⟩ : Fin 256) := by
  funext a
  match a with
  | ⟨0, _⟩ => rfl
  | ⟨1, _⟩ => rfl

/-- Position k < 128 of the concatenated row of edge e lies in the first piece: it is entry k of the gathered source row. -/
theorem cat_lo (x0 : TF Cert.KernelIdeal.S100000x128) (x1 : TF Cert.KernelIdeal.S800000x128) (x2 : TI Cert.KernelIdeal.S800000)
    (e : Fin 800000) (o k : Fin 128) :
    val_main_v9 (F := Ideal) x0 x1 x2 (lidx_main_v10 (ix3 e 0 o) (Fin.castAdd 128 k)) = rowsAt x0 x2 (ix2 e k) := by
  unfold val_main_v9
  refine (concatenate_pair_apply_left (t := Cert.ReferenceIdeal.S800000x1x256) (s₁ := Cert.ReferenceIdeal.S800000x1x128)
    (s₂ := Cert.ReferenceIdeal.S800000x1x128) _ _ _ _ _ rfl (ix3 e 0 k) ?_).trans (rows_rel x0 x2 e k).symm
  intro b
  match b with
  | ⟨0, _⟩ => rfl
  | ⟨1, _⟩ => rfl
  | ⟨2, _⟩ => rfl

/-- Position 128 + k of the concatenated row of edge e lies in the second piece: it is entry k of the edge's own row. -/
theorem cat_hi (x0 : TF Cert.KernelIdeal.S100000x128) (x1 : TF Cert.KernelIdeal.S800000x128) (x2 : TI Cert.KernelIdeal.S800000)
    (e : Fin 800000) (o k : Fin 128) :
    val_main_v9 (F := Ideal) x0 x1 x2 (lidx_main_v10 (ix3 e 0 o) (Fin.natAdd 128 k)) = x1 (ix2 e k) := by
  unfold val_main_v9
  refine (concatenate_pair_apply_right (t := Cert.ReferenceIdeal.S800000x1x256) (s₁ := Cert.ReferenceIdeal.S800000x1x128)
    (s₂ := Cert.ReferenceIdeal.S800000x1x128) _ _ _ _ _ rfl rfl (ix3 e 0 k) ?_ ?_).trans
    (rel_unsqueeze x1 _ (by decide) (by decide) e k).symm
  · intro b hb
    match b with
    | ⟨0, _⟩ => rfl
    | ⟨1, _⟩ => rfl
    | ⟨2, _⟩ => exact absurd rfl hb
  · show k.val + 128 = 128 + k.val
    omega

/-- The kernel's messages and the reference's hold the same entries. -/
theorem msg_rel (x0 : TF Cert.KernelIdeal.S100000x128) (x1 : TF Cert.KernelIdeal.S800000x128) (x2 : TI Cert.KernelIdeal.S800000) (x4 : TF Cert.KernelIdeal.S128x256) (x5 : TF Cert.KernelIdeal.S128) :
    Rel23 (kMsg x0 x1 x2 x4 x5) (val_main_v13 (F := Ideal) x0 x1 x2 x4 x5) := by
  intro e o
  show affRow (rowsAt x0 x2) x1 (wLo x4) (wHi x4) (bRow x5) e o
    = val_main_v10 (F := Ideal) x0 x1 x2 x4 (ix3 e 0 o) + val_main_v12 (F := Ideal) x5 (ix3 e 0 o)
  -- the bias: both sides add the bias at o
  have hb : idx_main_v11 (idx_main_v12 (ix3 e (0 : Fin 1) o)) = ix1 o := funext fun a => match a with | ⟨0, _⟩ => rfl
  rw [val_main_v12_apply, val_main_v11_apply, hb, val_main_v10_apply]
  unfold affRow
  rw [bRow_apply]
  congr 1
  -- the contraction over 256 positions, split at 128
  show _ = ∑ k : Fin (128 + 128), val_main_v9 (F := Ideal) x0 x1 x2 (lidx_main_v10 (ix3 e 0 o) k) * x4 (ridx_main_v10 (ix3 e 0 o) k)
  rw [Fin.sum_univ_add]
  congr 1
  · refine Finset.sum_congr rfl fun k _ => ?_
    rw [cat_lo, ridx_lo, wLo_apply]
  · refine Finset.sum_congr rfl fun k _ => ?_
    rw [cat_hi, ridx_hi, wHi_apply]

end Cert.Bridge

end
-- ==== Proof.RefAgg.lean ====
/-
  The neighbour means: the kernel's [100000, 128] array of per-row means holds the entries of the reference's [100000, 1, 128]
  stage, given that the messages do: both sum the messages into their destination rows (a row scatter-add, which commutes with
  the unit middle axis) and divide each row by the same count, at least one.
-/
import proofs.«103564_j85152021611247_1_alg».proof.Proof.KReads
import proofs.«103564_j85152021611247_1_alg».proof.Proof.LibRowGatherScatter
import proofs.«103564_j85152021611247_1_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.Bridge

open Cert.Sage Cert.RowOps Cert.KernelIdeal.KV Cert.ReferenceIdeal.Read
open Idealize.ShloMosaic Idealize.ShloMosaic.ValueIdx

/-- The host quotient of two arrays is taken entry by entry (at any float instance). -/
theorem hostDivf_apply {F : FTy → Type} [FloatOps F] {s : Shape} {φ : FTy} (x y : FVec F s φ) (i : s.Idx) :
    Host.divf x y i = FloatOps.hostDivf (x i) (y i) := rfl

/-- The two programs count the messages a row receives by the same expression: ones, one per edge, summed into their
    destination rows over a zero array, and the maximum of that with one. -/
theorem deg_eq (x3 : TI Cert.KernelIdeal.S800000) : kDeg x3 = val_main_v22 (F := Ideal) x3 := by
  unfold kDeg val_main_v22 val_main_v20 val_main_v21 val_main_v19 val_main_v18 val_main_v17
    val_main_cst_1 val_main_cst_2 val_main_cst_3 colIdx
  rfl

/-- A vector [100000] laid down the rows of [100000, 128] (first as a column [100000, 1], then along the columns) reads,
    at (n, o), the vector at n. -/
theorem rowBcast_apply {α : Type} (y : Cert.KernelIdeal.S100000.Idx → α)
    (h₁ : Cert.KernelIdeal.S100000.BroadcastsInDim Cert.KernelIdeal.S100000x1 (![0] : Fin 1 → Fin 2))
    (h₂ : Cert.KernelIdeal.S100000x1.BroadcastsInDim Cert.KernelIdeal.S100000x128 (![0, 1] : Fin 2 → Fin 2))
    (a : Fin 100000) (b : Fin 128) :
    broadcastInDim Cert.KernelIdeal.S100000x128 ![0, 1] h₂ (broadcastInDim Cert.KernelIdeal.S100000x1 ![0] h₁ y) (ix2 a b)
      = y (ix1 a) := by
  rw [broadcastInDim_apply _ h₂ _ (ix2 a b) (ix2 a (0 : Fin 1)) (fun c => match c with
    | ⟨0, _⟩ => by show a.val = if (100000 : Nat) = 1 then 0 else a.val; rw [if_neg (by decide)]
    | ⟨1, _⟩ => by show (0 : Nat) = if (1 : Nat) = 1 then 0 else b.val; rw [if_pos rfl])]
  exact broadcastInDim_apply _ h₁ y (ix2 a (0 : Fin 1)) (ix1 a) (fun c => match c with
    | ⟨0, _⟩ => by show a.val = if (100000 : Nat) = 1 then 0 else a.val; rw [if_neg (by decide)])

/-- The reference's divisor at (n, 0, o) is its count at n. -/
theorem refDen_apply (x3 : TI Cert.KernelIdeal.S800000) (a : Fin 100000) (b : Fin 128) :
    val_main_v24 (F := Ideal) x3 (ix3 a 0 b) = val_main_v22 (F := Ideal) x3 (ix1 a) := by
  rw [val_main_v24_apply, val_main_v23_apply]
  exact congrArg _ (funext fun c => match c with | ⟨0, _⟩ => rfl)

/-- The kernel program's zero array [100000, 128] and the reference's [100000, 1, 128] both read zero everywhere. -/
theorem zeros_rel (h : Cert.KernelIdeal.S_.BroadcastsInDim Cert.KernelIdeal.S100000x128 (![] : Fin 0 → Fin 2)) :
    Rel23 (broadcastInDim Cert.KernelIdeal.S100000x128 ![] h (constant (F := Ideal) Cert.KernelIdeal.S_ .f32 0x00000000#32))
      (val_main_v14 (F := Ideal)) := by
  intro a b
  rw [val_main_v14_apply, val_main_cst_apply]
  rfl

/-- The messages summed into their destination rows: the kernel's [100000, 128] array holds the entries of the
    reference's [100000, 1, 128] one, when the messages do. Both are the row scatter-add of the messages into a zero
    array at the same column of destination rows. -/
theorem agg_rel (x0 : TF Cert.KernelIdeal.S100000x128) (x1 : TF Cert.KernelIdeal.S800000x128) (x2 x3 : TI Cert.KernelIdeal.S800000) (x4 : TF Cert.KernelIdeal.S128x256) (x5 : TF Cert.KernelIdeal.S128)
    (hMsg : Rel23 (kMsg x0 x1 x2 x4 x5) (val_main_v13 (F := Ideal) x0 x1 x2 x4 x5)) :
    Rel23 (kAgg x0 x1 x2 x3 x4 x5) (val_main_v16 (F := Ideal) x0 x1 x2 x3 x4 x5) := by
  have key := scatterAdd_rel (n := 100000) (e := 800000) (d := 128) (w := 32) (φ := .f32)
    Cert.KernelIdeal.scatter_S100000x128_S800000x1_S800000x128_1_0_0_1.wf
    Cert.ReferenceIdeal.scatter_S100000x1x128_S800000x1_S800000x1x128_12_0_0_1.wf
    (broadcastInDim Cert.KernelIdeal.S100000x128 ![] Cert.KernelIdeal.Facts₀.bcast_S_S100000x128
      (constant (F := Ideal) Cert.KernelIdeal.S_ .f32 0x00000000#32))
    (val_main_v14 (F := Ideal)) (zeros_rel Cert.KernelIdeal.Facts₀.bcast_S_S100000x128)
    (kMsg x0 x1 x2 x4 x5) (val_main_v13 (F := Ideal) x0 x1 x2 x4 x5) hMsg (colIdx x3)
  exact key

/-- The kernel's neighbour means and the reference's hold the same entries, when the messages do. -/
theorem hn_rel (x0 : TF Cert.KernelIdeal.S100000x128) (x1 : TF Cert.KernelIdeal.S800000x128) (x2 x3 : TI Cert.KernelIdeal.S800000) (x4 : TF Cert.KernelIdeal.S128x256) (x5 : TF Cert.KernelIdeal.S128)
    (hMsg : Rel23 (kMsg x0 x1 x2 x4 x5) (val_main_v13 (F := Ideal) x0 x1 x2 x4 x5)) :
    Rel23 (kHn x0 x1 x2 x3 x4 x5) (val_main_v25 (F := Ideal) x0 x1 x2 x3 x4 x5) := by
  -- entry by entry both are a quotient: equal numerators (the summed messages) over equal divisors (the count at n)
  intro a b
  have hnum := agg_rel x0 x1 x2 x3 x4 x5 hMsg a b
  have hden := rowBcast_apply (kDeg x3) Cert.KernelIdeal.Facts₀.bcast_S100000_S100000x1_0
    Cert.KernelIdeal.Facts₀.bcast_S100000x1_S100000x128_0_1 a b
  unfold kHn
  rw [hostDivf_apply, val_main_v25_apply, hnum, hden, refDen_apply, deg_eq]

end Cert.Bridge

end
-- ==== Proof.RefNewh.lean ====
/-
  The node update: the kernel's updated node features [100000, 128] hold the entries of the reference's [100000, 1, 128] stage,
  given that the neighbour means do: the reference contracts the concatenation of a node's row and its neighbour mean (256 entries)
  with a weight row; split at 128, the two halves are the kernel's two products; bias and the maximum with zero agree.
-/
import proofs.«103564_j85152021611247_1_alg».proof.Proof.KReads
import proofs.«103564_j85152021611247_1_alg».proof.Proof.LibRowGatherScatter
import proofs.«103564_j85152021611247_1_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.Bridge

open Cert.Sage Cert.RowOps Cert.KernelIdeal.KV Cert.ReferenceIdeal.Read
open Idealize.ShloMosaic Idealize.ShloMosaic.ValueIdx

/-- A sum over 256 positions is the sum over the first 128 plus the sum over the last 128. -/
theorem newh_sum_split {M : Type} [AddCommMonoid M] (f : Fin 256 → M) :
    (∑ k : Fin 256, f k) = (∑ k : Fin 128, f ⟨k.val, by omega⟩) + ∑ k : Fin 128, f ⟨128 + k.val, by omega⟩ :=
  Fin.sum_univ_add (a := 128) (b := 128) f

/-- Below 128 the concatenated row (a node's row, then its neighbour mean) holds the node's own entry. -/
theorem newh_cat_lo (x0 : TF Cert.KernelIdeal.S100000x128) (x1 : TF Cert.KernelIdeal.S800000x128) (x2 x3 : TI Cert.KernelIdeal.S800000) (x4 : TF Cert.KernelIdeal.S128x256) (x5 : TF Cert.KernelIdeal.S128)
    (n : Fin 100000) (k : Fin 128) :
    val_main_v26 (F := Ideal) x0 x1 x2 x3 x4 x5 (ix3 n (0 : Fin 1) ⟨k.val, by omega⟩) = x0 (ix2 n k) := by
  unfold val_main_v26
  refine (concatenate_pair_apply_left (t := Cert.ReferenceIdeal.S100000x1x256) (s₁ := Cert.ReferenceIdeal.S100000x1x128)
    (s₂ := Cert.ReferenceIdeal.S100000x1x128) (2 : Fin 3) _ _ _ _ rfl (ix3 n (0 : Fin 1) k) (fun b => ?_)).trans ?_
  · match b with
    | ⟨0, _⟩ => rfl
    | ⟨1, _⟩ => rfl
    | ⟨2, _⟩ => rfl
  · rw [val_main_v0_apply]
    exact congrArg x0 (funext fun a => match a with | ⟨0, _⟩ => rfl | ⟨1, _⟩ => rfl)

/-- From 128 on it holds the neighbour mean's entry, 128 less. -/
theorem newh_cat_hi (x0 : TF Cert.KernelIdeal.S100000x128) (x1 : TF Cert.KernelIdeal.S800000x128) (x2 x3 : TI Cert.KernelIdeal.S800000) (x4 : TF Cert.KernelIdeal.S128x256) (x5 : TF Cert.KernelIdeal.S128)
    (n : Fin 100000) (k : Fin 128) :
    val_main_v26 (F := Ideal) x0 x1 x2 x3 x4 x5 (ix3 n (0 : Fin 1) ⟨128 + k.val, by omega⟩)
      = val_main_v25 (F := Ideal) x0 x1 x2 x3 x4 x5 (ix3 n (0 : Fin 1) k) := by
  unfold val_main_v26
  exact concatenate_pair_apply_right (t := Cert.ReferenceIdeal.S100000x1x256) (s₁ := Cert.ReferenceIdeal.S100000x1x128)
    (s₂ := Cert.ReferenceIdeal.S100000x1x128) (2 : Fin 3) _ _ _ _ rfl rfl (ix3 n (0 : Fin 1) k)
    (fun b hb => match b with
      | ⟨0, _⟩ => rfl
      | ⟨1, _⟩ => rfl
      | ⟨2, _⟩ => absurd rfl hb)
    (by show k.val + 128 = 128 + k.val; omega)

/-- The contraction over 256 entries splits at 128: the node's own row against the weight row's first half, plus the
    neighbour mean against its second half. -/
theorem newh_dot_split (x0 : TF Cert.KernelIdeal.S100000x128) (x1 : TF Cert.KernelIdeal.S800000x128) (x2 x3 : TI Cert.KernelIdeal.S800000) (x4 : TF Cert.KernelIdeal.S128x256) (x5 : TF Cert.KernelIdeal.S128) (x6 : TF Cert.KernelIdeal.S128x256)
    (n : Fin 100000) (o : Fin 128) :
    (∑ k : Fin 256, val_main_v26 (F := Ideal) x0 x1 x2 x3 x4 x5 (lidx_main_v27 (ix3 n (0 : Fin 1) o) k) * x6 (ridx_main_v27 (ix3 n (0 : Fin 1) o) k))
      = (∑ k : Fin 128, x0 (ix2 n k) * x6 (ix2 o ⟨k.val, by omega⟩))
        + ∑ k : Fin 128, val_main_v25 (F := Ideal) x0 x1 x2 x3 x4 x5 (ix3 n (0 : Fin 1) k) * x6 (ix2 o ⟨128 + k.val, by omega⟩) := by
  rw [newh_sum_split]
  refine congrArg₂ (· + ·) (Finset.sum_congr rfl fun k _ => ?_) (Finset.sum_congr rfl fun k _ => ?_)
  · have el : lidx_main_v27 (ix3 n (0 : Fin 1) o) ⟨k.val, by omega⟩ = ix3 n (0 : Fin 1) ⟨k.val, by omega⟩ :=
      funext fun a => match a with | ⟨0, _⟩ => rfl | ⟨1, _⟩ => rfl | ⟨2, _⟩ => rfl
    have er : ridx_main_v27 (ix3 n (0 : Fin 1) o) ⟨k.val, by omega⟩ = ix2 o ⟨k.val, by omega⟩ :=
      funext fun a => match a with | ⟨0, _⟩ => rfl | ⟨1, _⟩ => rfl
    rw [el, er, newh_cat_lo]
  · have el : lidx_main_v27 (ix3 n (0 : Fin 1) o) ⟨128 + k.val, by omega⟩ = ix3 n (0 : Fin 1) ⟨128 + k.val, by omega⟩ :=
      funext fun a => match a with | ⟨0, _⟩ => rfl | ⟨1, _⟩ => rfl | ⟨2, _⟩ => rfl
    have er : ridx_main_v27 (ix3 n (0 : Fin 1) o) ⟨128 + k.val, by omega⟩ = ix2 o ⟨128 + k.val, by omega⟩ :=
      funext fun a => match a with | ⟨0, _⟩ => rfl | ⟨1, _⟩ => rfl
    rw [el, er, newh_cat_hi]

/-- The kernel's updated node features and the reference's hold the same entries, when the neighbour means do. -/
theorem newh_rel (x0 : TF Cert.KernelIdeal.S100000x128) (x1 : TF Cert.KernelIdeal.S800000x128) (x2 x3 : TI Cert.KernelIdeal.S800000) (x4 : TF Cert.KernelIdeal.S128x256) (x5 : TF Cert.KernelIdeal.S128) (x6 : TF Cert.KernelIdeal.S128x256) (x7 : TF Cert.KernelIdeal.S128)
    (hHn : Rel23 (kHn x0 x1 x2 x3 x4 x5) (val_main_v25 (F := Ideal) x0 x1 x2 x3 x4 x5)) :
    Rel23 (kNewh x0 x1 x2 x3 x4 x5 x6 x7) (val_main_v31 (F := Ideal) x0 x1 x2 x3 x4 x5 x6 x7) := by
  intro n o
  -- both sides are a maximum with zero of a sum of a contraction and a bias entry
  show max (affRow x0 (kHn x0 x1 x2 x3 x4 x5) (wLo x6) (wHi x6) (bRow x7) n o) (Ideal.ofBits .f32 0x00000000#32)
    = max (val_main_v27 (F := Ideal) x0 x1 x2 x3 x4 x5 x6 (ix3 n (0 : Fin 1) o) + val_main_v29 (F := Ideal) x7 (ix3 n (0 : Fin 1) o))
        (val_main_call0_v0 (F := Ideal) (ix3 n (0 : Fin 1) o))
  rw [val_main_call0_v0_apply, val_main_call0_cst_apply, val_main_v29_apply, val_main_v28_apply, val_main_v27_apply,
    newh_dot_split]
  unfold affRow
  -- the kernel's two transposed half weights are the weight row's two halves; the neighbour means agree by hypothesis
  have hL : ∀ k : Fin 128, x0 (ix2 n k) * wLo x6 (ix2 k o) = x0 (ix2 n k) * x6 (ix2 o ⟨k.val, by omega⟩) :=
    fun k => by rw [wLo_apply]
  have hH : ∀ k : Fin 128, kHn x0 x1 x2 x3 x4 x5 (ix2 n k) * wHi x6 (ix2 k o)
      = val_main_v25 (F := Ideal) x0 x1 x2 x3 x4 x5 (ix3 n (0 : Fin 1) k) * x6 (ix2 o ⟨128 + k.val, by omega⟩) :=
    fun k => by rw [wHi_apply, hHn n k]
  have hb : bRow x7 (ix2 (0 : Fin 1) o) = x7 (idx_main_v28 (idx_main_v29 (ix3 n (0 : Fin 1) o))) :=
    (bRow_apply x7 o).trans (congrArg x7 (funext fun a => match a with | ⟨0, _⟩ => rfl))
  rw [Finset.sum_congr rfl (fun k _ => hL k), Finset.sum_congr rfl (fun k _ => hH k), hb]
  rfl

end Cert.Bridge

end
-- ==== Proof.RefEdge.lean ====
/-
  The edge update and the two results: half the sum of the two endpoints' updated rows (two row gathers, which commute with the
  unit middle axis), and each kernel result, a unit axis inserted, is the reference's stage outright.
-/
import proofs.«103564_j85152021611247_1_alg».proof.Proof.KReads
import proofs.«103564_j85152021611247_1_alg».proof.Proof.LibRowGatherScatter
import proofs.«103564_j85152021611247_1_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.Bridge

open Cert.Sage Cert.RowOps Cert.KernelIdeal.KV Cert.ReferenceIdeal.Read
open Idealize.ShloMosaic Idealize.ShloMosaic.ValueIdx

/-- The kernel's updated edge features and the reference's hold the same entries, when the updated node features do. -/
theorem newe_rel (x0 : TF Cert.KernelIdeal.S100000x128) (x1 : TF Cert.KernelIdeal.S800000x128) (x2 x3 : TI Cert.KernelIdeal.S800000) (x4 : TF Cert.KernelIdeal.S128x256) (x5 : TF Cert.KernelIdeal.S128) (x6 : TF Cert.KernelIdeal.S128x256) (x7 : TF Cert.KernelIdeal.S128)
    (hNewh : Rel23 (kNewh x0 x1 x2 x3 x4 x5 x6 x7) (val_main_v31 (F := Ideal) x0 x1 x2 x3 x4 x5 x6 x7)) :
    Rel23 (kNewe x0 x1 x2 x3 x4 x5 x6 x7) (val_main_v48 (F := Ideal) x0 x1 x2 x3 x4 x5 x6 x7) := by
  intro e o
  have g2 := gather_rel (n := 100000) (e := 800000) (d := 128) (by decide) Cert.KernelIdeal.Facts₀.gather_S100000x128_S800000x1_S800000x128_1_0_n_n_0_1_1128_wf Cert.ReferenceIdeal.Facts₀.gather_S100000x1x128_S800000x1_S800000x1x128_12_0_n_n_0_1_11128_wf
    (kNewh x0 x1 x2 x3 x4 x5 x6 x7) (val_main_v31 (F := Ideal) x0 x1 x2 x3 x4 x5 x6 x7) hNewh (colIdx (wrapIdx x2)) e o
  have g3 := gather_rel (n := 100000) (e := 800000) (d := 128) (by decide) Cert.KernelIdeal.Facts₀.gather_S100000x128_S800000x1_S800000x128_1_0_n_n_0_1_1128_wf Cert.ReferenceIdeal.Facts₀.gather_S100000x1x128_S800000x1_S800000x1x128_12_0_n_n_0_1_11128_wf
    (kNewh x0 x1 x2 x3 x4 x5 x6 x7) (val_main_v31 (F := Ideal) x0 x1 x2 x3 x4 x5 x6 x7) hNewh (colIdx (wrapIdx x3)) e o
  calc kNewe x0 x1 x2 x3 x4 x5 x6 x7 (ix2 e o)
      = (Host.gather (gatherRows2 100000 800000 128 Cert.KernelIdeal.Facts₀.gather_S100000x128_S800000x1_S800000x128_1_0_n_n_0_1_1128_wf) (kNewh x0 x1 x2 x3 x4 x5 x6 x7) (colIdx (wrapIdx x2)) (ix2 e o)
          + Host.gather (gatherRows2 100000 800000 128 Cert.KernelIdeal.Facts₀.gather_S100000x128_S800000x1_S800000x128_1_0_n_n_0_1_1128_wf) (kNewh x0 x1 x2 x3 x4 x5 x6 x7) (colIdx (wrapIdx x3)) (ix2 e o))
        * Ideal.ofBits .f32 0x3F000000#32 := rfl
    _ = (Host.gather (gatherRows3 100000 800000 128 Cert.ReferenceIdeal.Facts₀.gather_S100000x1x128_S800000x1_S800000x1x128_12_0_n_n_0_1_11128_wf) (val_main_v31 (F := Ideal) x0 x1 x2 x3 x4 x5 x6 x7) (colIdx (wrapIdx x2)) (ix3 e 0 o)
          + Host.gather (gatherRows3 100000 800000 128 Cert.ReferenceIdeal.Facts₀.gather_S100000x1x128_S800000x1_S800000x1x128_12_0_n_n_0_1_11128_wf) (val_main_v31 (F := Ideal) x0 x1 x2 x3 x4 x5 x6 x7) (colIdx (wrapIdx x3)) (ix3 e 0 o))
        * Ideal.ofBits .f32 0x3F000000#32 := by rw [g2, g3]
    _ = val_main_v48 (F := Ideal) x0 x1 x2 x3 x4 x5 x6 x7 (ix3 e 0 o) := rfl

/-- The first result. -/
theorem out0_eq (x0 : TF Cert.KernelIdeal.S100000x128) (x1 : TF Cert.KernelIdeal.S800000x128) (x2 x3 : TI Cert.KernelIdeal.S800000) (x4 : TF Cert.KernelIdeal.S128x256) (x5 : TF Cert.KernelIdeal.S128) (x6 : TF Cert.KernelIdeal.S128x256) (x7 : TF Cert.KernelIdeal.S128)
    (hNewh : Rel23 (kNewh x0 x1 x2 x3 x4 x5 x6 x7) (val_main_v31 (F := Ideal) x0 x1 x2 x3 x4 x5 x6 x7)) :
    kOut0 x0 x1 x2 x3 x4 x5 x6 x7 = val_main_v31 (F := Ideal) x0 x1 x2 x3 x4 x5 x6 x7 :=
  ext3 fun a b => ((rel_unsqueeze (kNewh x0 x1 x2 x3 x4 x5 x6 x7) Cert.KernelIdeal.Facts₀.bcast_S100000x128_S100000x1x128_0_2 (by decide) (by decide)) a b).symm.trans (hNewh a b)

/-- The second result. -/
theorem out1_eq (x0 : TF Cert.KernelIdeal.S100000x128) (x1 : TF Cert.KernelIdeal.S800000x128) (x2 x3 : TI Cert.KernelIdeal.S800000) (x4 : TF Cert.KernelIdeal.S128x256) (x5 : TF Cert.KernelIdeal.S128) (x6 : TF Cert.KernelIdeal.S128x256) (x7 : TF Cert.KernelIdeal.S128)
    (hNewe : Rel23 (kNewe x0 x1 x2 x3 x4 x5 x6 x7) (val_main_v48 (F := Ideal) x0 x1 x2 x3 x4 x5 x6 x7)) :
    kOut1 x0 x1 x2 x3 x4 x5 x6 x7 = val_main_v48 (F := Ideal) x0 x1 x2 x3 x4 x5 x6 x7 :=
  ext3 fun a b => ((rel_unsqueeze (kNewe x0 x1 x2 x3 x4 x5 x6 x7) Cert.KernelIdeal.Facts₀.bcast_S800000x128_S800000x1x128_0_2 (by decide) (by decide)) a b).symm.trans (hNewe a b)

end Cert.Bridge

end
-- ==== Proof.RefAll.lean ====
/-
  Both results of the kernel program are the reference's, as functions of the eight arguments: the four stages chained
  (messages, neighbour means, updated node features, updated edge features).
-/
import proofs.«103564_j85152021611247_1_alg».proof.Proof.RefMsg
import proofs.«103564_j85152021611247_1_alg».proof.Proof.RefAgg
import proofs.«103564_j85152021611247_1_alg».proof.Proof.RefNewh
import proofs.«103564_j85152021611247_1_alg».proof.Proof.RefEdge

noncomputable section

namespace Cert.Bridge

open Cert.Sage Cert.KernelIdeal.KV Cert.ReferenceIdeal.Read
open Idealize.ShloMosaic

theorem newh_all (x0 : TF Cert.KernelIdeal.S100000x128) (x1 : TF Cert.KernelIdeal.S800000x128) (x2 x3 : TI Cert.KernelIdeal.S800000) (x4 : TF Cert.KernelIdeal.S128x256) (x5 : TF Cert.KernelIdeal.S128) (x6 : TF Cert.KernelIdeal.S128x256) (x7 : TF Cert.KernelIdeal.S128) :
    Rel23 (kNewh x0 x1 x2 x3 x4 x5 x6 x7) (val_main_v31 (F := Ideal) x0 x1 x2 x3 x4 x5 x6 x7) :=
  newh_rel x0 x1 x2 x3 x4 x5 x6 x7 (hn_rel x0 x1 x2 x3 x4 x5 (msg_rel x0 x1 x2 x4 x5))

/-- The first result: the updated node features. -/
theorem out0 (x0 : TF Cert.KernelIdeal.S100000x128) (x1 : TF Cert.KernelIdeal.S800000x128) (x2 x3 : TI Cert.KernelIdeal.S800000) (x4 : TF Cert.KernelIdeal.S128x256) (x5 : TF Cert.KernelIdeal.S128) (x6 : TF Cert.KernelIdeal.S128x256) (x7 : TF Cert.KernelIdeal.S128) :
    kOut0 x0 x1 x2 x3 x4 x5 x6 x7 = val_main_v31 (F := Ideal) x0 x1 x2 x3 x4 x5 x6 x7 :=
  out0_eq x0 x1 x2 x3 x4 x5 x6 x7 (newh_all x0 x1 x2 x3 x4 x5 x6 x7)

/-- The second result: the updated edge features. -/
theorem out1 (x0 : TF Cert.KernelIdeal.S100000x128) (x1 : TF Cert.KernelIdeal.S800000x128) (x2 x3 : TI Cert.KernelIdeal.S800000) (x4 : TF Cert.KernelIdeal.S128x256) (x5 : TF Cert.KernelIdeal.S128) (x6 : TF Cert.KernelIdeal.S128x256) (x7 : TF Cert.KernelIdeal.S128) :
    kOut1 x0 x1 x2 x3 x4 x5 x6 x7 = val_main_v48 (F := Ideal) x0 x1 x2 x3 x4 x5 x6 x7 :=
  out1_eq x0 x1 x2 x3 x4 x5 x6 x7 (newe_rel x0 x1 x2 x3 x4 x5 x6 x7 (newh_all x0 x1 x2 x3 x4 x5 x6 x7))

end Cert.Bridge

end
-- ==== Proof.lean ====
/-
  A graph layer with mean aggregation, three kernels among host gathers and scatter-adds, against its plain reference, at the
  extended reals.

  Both programs compute, per edge e, the message W_msg · [x(src e); ef(e)] + b_msg; per node n, the mean h̄(n) of the messages
  whose destination is n (their sum divided by their number, at least one); the updated node features
  max(W_apply · [x(n); h̄(n)] + b_apply, 0); and per edge half the sum of its two endpoints' updated features. The kernel
  program keeps matrices [rows, 128] and multiplies by the two transposed halves of each weight; the reference carries a unit
  middle axis, concatenates the two operands along the last axis and contracts 256 entries at once. A sum of 256 products split
  at 128 is the sum of the two halves' sums, and gathers and scatter-adds of whole rows commute with the unit axis, so the
  four stages agree entry by entry (Proof/RefMsg, RefAgg, RefNewh, RefEdge); no law used needs finiteness.
  The kernel program's result buffers are read off its run boundary by boundary (Proof/KWalk over Proof/KRegion0..2), the
  reference's off its run one operation at a time.
-/
import proofs.«103564_j85152021611247_1_alg».proof.Defs
import proofs.«103564_j85152021611247_1_alg».proof.Proof.Gen.Kernel
import proofs.«103564_j85152021611247_1_alg».proof.Proof.Gen.Kernel.Frame
import proofs.«103564_j85152021611247_1_alg».proof.Proof.Gen.KernelIdeal
import proofs.«103564_j85152021611247_1_alg».proof.Proof.Gen.KernelIdeal.Frame
import proofs.«103564_j85152021611247_1_alg».proof.Proof.Gen.ReferenceIdeal
import proofs.«103564_j85152021611247_1_alg».proof.Proof.Gen.ReferenceIdeal.Run
import proofs.«103564_j85152021611247_1_alg».proof.Proof.Gen.ReferenceIdeal.Read
import proofs.«103564_j85152021611247_1_alg».proof.Proof.Gen.Pre_finite_inputs
import proofs.«103564_j85152021611247_1_alg».proof.Proof.KRun
import proofs.«103564_j85152021611247_1_alg».proof.Proof.KWalk
import proofs.«103564_j85152021611247_1_alg».proof.Proof.RefAll
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

open Cert.KernelIdeal.KV in
/-- Both runs end with the two results at `kOut0`, `kOut1` of the arguments: the kernel program's by its walk, the
    reference's because each of its results, as a function of the arguments, is that array. -/
theorem algebraic : Cert.algebraic_KernelIdeal_ReferenceIdeal := by
  intro m ρ m' ρ' _ hagree
  refine ⟨fun c => kOut0 (A0 m c) (A1 m c) (A2 m c) (A3 m c) (A4 m c) (A5 m c) (A6 m c) (A7 m c),
    fun c => kOut1 (A0 m c) (A1 m c) (A2 m c) (A3 m c) (A4 m c) (A5 m c) (A6 m c) (A7 m c), ?_, ?_⟩
  · exact (θ_run Cert.KernelIdeal.defs _ _).mono
      (fun r h c => ⟨(h c).1.trans (W7_v46 m ρ c), (h c).2.1.trans (W7_v47 m ρ c), (h c).2.2⟩)
      (Cert.KernelIdeal.KV.run (F := Ideal) m ρ)
  · refine (θ_run Cert.ReferenceIdeal.defs _ _).mono (fun r h c => ⟨?_, ?_, (h c).2.2⟩)
      (Cert.ReferenceIdeal.Value.run (F := Ideal) m' ρ')
    · have h1 := (h c).1.trans (Cert.ReferenceIdeal.Read.val_main_v31_eq (F := Ideal) _ _ _ _ _ _ _ _)
      obtain ⟨e0, e1, e2, e3, e4, e5, e6, e7⟩ := hagree c
      rw [e0, e1, e2, e3, e4, e5, e6, e7] at h1
      exact h1.trans (Cert.Bridge.out0 _ _ _ _ _ _ _ _).symm
    · have h1 := (h c).2.1.trans (Cert.ReferenceIdeal.Read.val_main_v48_eq (F := Ideal) m' c)
      obtain ⟨e0, e1, e2, e3, e4, e5, e6, e7⟩ := hagree c
      rw [e0, e1, e2, e3, e4, e5, e6, e7] at h1
      exact h1.trans (Cert.Bridge.out1 _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
